-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63_1)) (v1 : (c : Dev Cert.KernelIdeal.nD) → Buf (Elt Ideal) ((c.tc : Thread Cert.KernelIdeal.nD Cert.KernelIdeal.τ).loc Cert.KernelIdeal.main_v63_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63_1) = v0 c
          ∧ r.2.mem ((c.tc : Thread Cert.KernelIdeal.nD Cert.KernelIdeal.τ).loc Cert.KernelIdeal.main_v63_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x128 .f32) (main_arg3 : FVec F S128 .f32) (main_arg4 : FVec F S128x40 .f32) (main_arg5 : FVec F S40 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S2000x256 : Shape := ⟨2, ![2000, 256]⟩
abbrev S2000x128 : Shape := ⟨2, ![2000, 128]⟩
abbrev S850000x128 : Shape := ⟨2, ![850000, 128]⟩
abbrev S1x128 : Shape := ⟨2, ![1, 128]⟩
abbrev S50000x40 : Shape := ⟨2, ![50000, 40]⟩
abbrev S2000x40 : Shape := ⟨2, ![2000, 40]⟩
abbrev S850000x40 : Shape := ⟨2, ![850000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 88
  | .vmem => 22
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x1, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x40, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x40, .f32⟩
  | .hbm, ⟨78, _⟩ => ⟨S850000x1, .f32⟩
  | .hbm, ⟨79, _⟩ => ⟨S850000x40, .f32⟩
  | .hbm, ⟨80, _⟩ => ⟨S850000x40, .f32⟩
  | .hbm, ⟨81, _⟩ => ⟨S_, .f32⟩
  | .hbm, ⟨82, _⟩ => ⟨S50000x40, .f32⟩
  | .hbm, ⟨83, _⟩ => ⟨S850000x1, .i32⟩
  | .hbm, ⟨84, _⟩ => ⟨S50000x40, .f32⟩
  | .hbm, ⟨85, _⟩ => ⟨S1x40, .f32⟩
  | .hbm, ⟨86, _⟩ => ⟨S50000x40, .f32⟩
  | .hbm, ⟨87, _⟩ => ⟨S50000x40, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x40, .f32⟩
  | .local _ .vmem, ⟨13, _⟩ => ⟨S2000x40, .f32⟩
  | .local _ .vmem, ⟨14, _⟩ => ⟨S2000x40, .f32⟩
  | .local _ .vmem, ⟨15, _⟩ => ⟨S2000x40, .f32⟩
  | .local _ .vmem, ⟨16, _⟩ => ⟨S2000x40, .f32⟩
  | .local _ .vmem, ⟨17, _⟩ => ⟨S1x40, .f32⟩
  | .local _ .vmem, ⟨18, _⟩ => ⟨S2000x40, .f32⟩
  | .local _ .vmem, ⟨19, _⟩ => ⟨S2000x40, .f32⟩
  | .local _ .vmem, ⟨20, _⟩ => ⟨S2000x40, .f32⟩
  | .local _ .vmem, ⟨21, _⟩ => ⟨S2000x40, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63_0 : Ref sig .tc := ⟨.hbm, 86, rfl⟩
abbrev main_v63_1 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x40_S128x40_0_0 : ∀ a, (![0, 0] : Fin 2 → Nat) a + S128x40.size a ≤ S128x40.size a
  h_S128x40 : 0 < S128x40.numel
  inb_S2000x40_S2000x40_0_0 : ∀ a, (![0, 0] : Fin 2 → Nat) a + S2000x40.size a ≤ S2000x40.size a
  h_S2000x40 : 0 < S2000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x40_S2000x40_1_0_0_1_n_n_wf : DotDims.WF S2000x128 S128x40 S2000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S50000x40.size a
  hwx2_2 : ∀ i : grid2.Coords, EltTy.bits .f32 = 32 ∨ (Rect.block (s := S50000x40) S2000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x40.size a ≤ S50000x40.size a
  hwx3_0 : ∀ i : grid3.Coords, EltTy.bits .f32 = 32 ∨ (Rect.block (s := S50000x40) S2000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x40.size a ≤ S50000x40.size a
  hwx3_2 : ∀ i : grid3.Coords, EltTy.bits .f32 = 32 ∨ (Rect.block (s := S50000x40) S2000x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x40.size a ≤ S50000x40.size a
  hwx3_3 : ∀ i : grid3.Coords, EltTy.bits .f32 = 32 ∨ (Rect.block (s := S50000x40) S2000x40.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S2000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63_0) S2000x40.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v63_1) S2000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x40 : Shape := ⟨2, ![50000, 40]⟩
abbrev S850000x40 : Shape := ⟨2, ![850000, 40]⟩
abbrev S1x40 : Shape := ⟨2, ![1, 40]⟩
abbrev S50000x1 : Shape := ⟨2, ![50000, 1]⟩

abbrev nBuf : Space → Nat
  | .hbm => 107
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x1, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x40, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x40, .f32⟩
  | .hbm, ⟨82, _⟩ => ⟨S850000x1, .f32⟩
  | .hbm, ⟨83, _⟩ => ⟨S850000x40, .f32⟩
  | .hbm, ⟨84, _⟩ => ⟨S850000x40, .f32⟩
  | .hbm, ⟨85, _⟩ => ⟨S_, .f32⟩
  | .hbm, ⟨86, _⟩ => ⟨S50000x40, .f32⟩
  | .hbm, ⟨87, _⟩ => ⟨S850000x1, .i32⟩
  | .hbm, ⟨88, _⟩ => ⟨S50000x40, .f32⟩
  | .hbm, ⟨89, _⟩ => ⟨S1x40, .f32⟩
  | .hbm, ⟨90, _⟩ => ⟨S50000x40, .f32⟩
  | .hbm, ⟨91, _⟩ => ⟨S50000x40, .f32⟩
  | .hbm, ⟨92, _⟩ => ⟨S_, .f32⟩
  | .hbm, ⟨93, _⟩ => ⟨S50000, .f32⟩
  | .hbm, ⟨94, _⟩ => ⟨S_, .f32⟩
  | .hbm, ⟨95, _⟩ => ⟨S50000, .f32⟩
  | .hbm, ⟨96, _⟩ => ⟨S50000, .f32⟩
  | .hbm, ⟨97, _⟩ => ⟨S50000x1, .f32⟩
  | .hbm, ⟨98, _⟩ => ⟨S50000x40, .f32⟩
  | .hbm, ⟨99, _⟩ => ⟨S50000x40, .f32⟩
  | .hbm, ⟨100, _⟩ => ⟨S50000x40, .f32⟩
  | .hbm, ⟨101, _⟩ => ⟨S_, .f32⟩
  | .hbm, ⟨102, _⟩ => ⟨S50000, .f32⟩
  | .hbm, ⟨103, _⟩ => ⟨S50000x1, .f32⟩
  | .hbm, ⟨104, _⟩ => ⟨S50000x1, .f32⟩
  | .hbm, ⟨105, _⟩ => ⟨S50000x40, .f32⟩
  | .hbm, ⟨106, _⟩ => ⟨S50000x40, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x40_S50000x40_1_0_0_1_n_n_wf : DotDims.WF S50000x128 S128x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.Boundary.lean ====
/-
  The host stretches of the kernel program between its four kernel regions, read as the reference's own stages.

  Both programs compute the edge lists (row and column indices with the self loops appended), the symmetric
  normalisation of the edges, and each layer's gather / scale / scatter-add with the SAME host operations. So what
  the kernel program's buffers hold after each stretch is, operation for operation, the reference's stage of the
  same name applied to the same arguments, once the buffers the stretch reads hold the corresponding stages; none
  of those chains is ever opened. Every statement is over an ARBITRARY valuation `W` of the buffers at the
  stretch's entry.
-/
import proofs.«153919_j13262859010221_1_alg».proof.Proof.Gen.KernelIdeal.Frame
import proofs.«153919_j13262859010221_1_alg».proof.Proof.RefRead
import Idealize.ShloMosaic.Lib.StableHlo.Run
import Idealize.ShloMosaic.PureOps.Ideal

set_option maxRecDepth 16384

noncomputable section

namespace Cert.Bridge

open Idealize.ShloMosaic Idealize.ShloMosaic.TcCoe Idealize.SL.Sem Idealize.ShloMosaic.StableHlo Cert.KernelIdeal Cert.KernelIdeal.Gen
open Cert.ReferenceIdeal.ReadP (val_main_v3 val_main_v6 val_main_v12 val_main_v15 val_main_cst_3 val_main_v16 val_main_v31 val_main_v32 val_main_v45 val_main_v49 val_main_v50 val_main_v63 val_main_v66 val_main_v67)

variable (W : Valuation τ sig (Elt Ideal))

/-! ## Before the first kernel region: the edge lists, the degrees, the normalisation -/

/-- The row indices of the edges, self loops appended. -/
theorem pre1_rows : after (hostOps0 (F := Ideal)) W (Proc.devRef .tc main_v3) = val_main_v3 (F := Ideal) (W (Proc.devRef .tc main_arg1)) := by
  after_results
  rfl

/-- The column indices of the edges, self loops appended. -/
theorem pre1_cols : after (hostOps0 (F := Ideal)) W (Proc.devRef .tc main_v6) = val_main_v6 (F := Ideal) (W (Proc.devRef .tc main_arg1)) := by
  after_results
  rfl

set_option maxHeartbeats 8000000 in
/-- Which nodes have a positive degree (the scatter-added ones compared with zero). -/
theorem pre1_pos : after (hostOps0 (F := Ideal)) W (Proc.devRef .tc main_v12) = val_main_v12 (F := Ideal) (W (Proc.devRef .tc main_arg1)) := by
  after_results
  rfl

set_option maxHeartbeats 8000000 in
/-- The inverse square root of each node's degree, the degree raised to at least one. -/
theorem pre1_rsqrt : after (hostOps0 (F := Ideal)) W (Proc.devRef .tc main_v15) = val_main_v15 (F := Ideal) (W (Proc.devRef .tc main_arg1)) := by
  after_results
  rfl

/-- The zero the degree-less nodes get. -/
theorem pre1_zero : after (hostOps0 (F := Ideal)) W (Proc.devRef .tc main_cst_3) = val_main_cst_3 (F := Ideal) := by
  after_results
  rfl

set_option maxHeartbeats 4000000 in
/-- The selection between the two: each node's normalising factor. -/
theorem pre2_dinv (x1 : (⟨Cert.ReferenceIdeal.S2x800000, .i32⟩ : BufTy).Contents (Elt Ideal))
    (h12 : W (Proc.devRef .tc main_v12) = val_main_v12 (F := Ideal) x1)
    (h15 : W (Proc.devRef .tc main_v15) = val_main_v15 (F := Ideal) x1)
    (hc : W (Proc.devRef .tc main_cst_3) = val_main_cst_3 (F := Ideal)) :
    after (hostOps0_1 (F := Ideal)) W (Proc.devRef .tc main_v16) = val_main_v16 (F := Ideal) x1 := by
  after_results_simp
  simp only [TRef.ofBuf, TRef.toBuf, cast_eq]
  rw [h12, h15, hc]
  rfl

set_option maxHeartbeats 4000000 in
/-- The edges' normalisation: the two end points' factors, gathered and multiplied. -/
theorem pre3_norm (x1 : (⟨Cert.ReferenceIdeal.S2x800000, .i32⟩ : BufTy).Contents (Elt Ideal))
    (h3 : W (Proc.devRef .tc main_v3) = val_main_v3 (F := Ideal) x1)
    (h6 : W (Proc.devRef .tc main_v6) = val_main_v6 (F := Ideal) x1)
    (h16 : W (Proc.devRef .tc main_v16) = val_main_v16 (F := Ideal) x1) :
    after (hostOps0_2 (F := Ideal)) W (Proc.devRef .tc main_v31) = val_main_v31 (F := Ideal) x1 := by
  after_results_simp
  rw [h3, h6, h16]
  rfl

/-! What each of the three stretches leaves alone. -/

/-- The second stretch leaves the row indices alone. -/
theorem pre2_keep_v3 : after (hostOps0_1 (F := Ideal)) W (Proc.devRef .tc main_v3) = W (Proc.devRef .tc main_v3) := by
  after_results_simp

/-- The third stretch leaves the row indices alone. -/
theorem pre3_keep_v3 : after (hostOps0_2 (F := Ideal)) W (Proc.devRef .tc main_v3) = W (Proc.devRef .tc main_v3) := by
  after_results_simp

/-- The second stretch leaves the column indices alone. -/
theorem pre2_keep_v6 : after (hostOps0_1 (F := Ideal)) W (Proc.devRef .tc main_v6) = W (Proc.devRef .tc main_v6) := by
  after_results_simp

/-- The third stretch leaves the column indices alone. -/
theorem pre3_keep_v6 : after (hostOps0_2 (F := Ideal)) W (Proc.devRef .tc main_v6) = W (Proc.devRef .tc main_v6) := by
  after_results_simp

/-- No operation of this stretch writes the argument array. -/
theorem pre1_keep_arg0 : after (hostOps0 (F := Ideal)) W (Proc.devRef .tc main_arg0) = W (Proc.devRef .tc main_arg0) := by
  after_results_simp

/-- No operation of this stretch writes the argument array. -/
theorem pre2_keep_arg0 : after (hostOps0_1 (F := Ideal)) W (Proc.devRef .tc main_arg0) = W (Proc.devRef .tc main_arg0) := by
  after_results_simp

/-- No operation of this stretch writes the argument array. -/
theorem pre3_keep_arg0 : after (hostOps0_2 (F := Ideal)) W (Proc.devRef .tc main_arg0) = W (Proc.devRef .tc main_arg0) := by
  after_results_simp

/-- No operation of this stretch writes the argument array. -/
theorem pre1_keep_arg2 : after (hostOps0 (F := Ideal)) W (Proc.devRef .tc main_arg2) = W (Proc.devRef .tc main_arg2) := by
  after_results_simp

/-- No operation of this stretch writes the argument array. -/
theorem pre2_keep_arg2 : after (hostOps0_1 (F := Ideal)) W (Proc.devRef .tc main_arg2) = W (Proc.devRef .tc main_arg2) := by
  after_results_simp

/-- No operation of this stretch writes the argument array. -/
theorem pre3_keep_arg2 : after (hostOps0_2 (F := Ideal)) W (Proc.devRef .tc main_arg2) = W (Proc.devRef .tc main_arg2) := by
  after_results_simp

/-- No operation of this stretch writes the argument array. -/
theorem pre1_keep_arg3 : after (hostOps0 (F := Ideal)) W (Proc.devRef .tc main_arg3) = W (Proc.devRef .tc main_arg3) := by
  after_results_simp

/-- No operation of this stretch writes the argument array. -/
theorem pre2_keep_arg3 : after (hostOps0_1 (F := Ideal)) W (Proc.devRef .tc main_arg3) = W (Proc.devRef .tc main_arg3) := by
  after_results_simp

/-- No operation of this stretch writes the argument array. -/
theorem pre3_keep_arg3 : after (hostOps0_2 (F := Ideal)) W (Proc.devRef .tc main_arg3) = W (Proc.devRef .tc main_arg3) := by
  after_results_simp

/-- No operation of this stretch writes the argument array. -/
theorem pre1_keep_arg4 : after (hostOps0 (F := Ideal)) W (Proc.devRef .tc main_arg4) = W (Proc.devRef .tc main_arg4) := by
  after_results_simp

/-- No operation of this stretch writes the argument array. -/
theorem pre2_keep_arg4 : after (hostOps0_1 (F := Ideal)) W (Proc.devRef .tc main_arg4) = W (Proc.devRef .tc main_arg4) := by
  after_results_simp

/-- No operation of this stretch writes the argument array. -/
theorem pre3_keep_arg4 : after (hostOps0_2 (F := Ideal)) W (Proc.devRef .tc main_arg4) = W (Proc.devRef .tc main_arg4) := by
  after_results_simp

/-- No operation of this stretch writes the argument array. -/
theorem pre1_keep_arg5 : after (hostOps0 (F := Ideal)) W (Proc.devRef .tc main_arg5) = W (Proc.devRef .tc main_arg5) := by
  after_results_simp

/-- No operation of this stretch writes the argument array. -/
theorem pre2_keep_arg5 : after (hostOps0_1 (F := Ideal)) W (Proc.devRef .tc main_arg5) = W (Proc.devRef .tc main_arg5) := by
  after_results_simp

/-- No operation of this stretch writes the argument array. -/
theorem pre3_keep_arg5 : after (hostOps0_2 (F := Ideal)) W (Proc.devRef .tc main_arg5) = W (Proc.devRef .tc main_arg5) := by
  after_results_simp

/-! ## Between the first and the second kernel region: the first layer's aggregation -/

set_option maxHeartbeats 4000000 in
/-- The first layer's gather, scale and scatter-add of the transformed features. -/
theorem mid1_agg (x0 : (⟨Cert.ReferenceIdeal.S50000x256, .f32⟩ : BufTy).Contents (Elt Ideal)) (x1 : (⟨Cert.ReferenceIdeal.S2x800000, .i32⟩ : BufTy).Contents (Elt Ideal)) (x2 : (⟨Cert.ReferenceIdeal.S256x128, .f32⟩ : BufTy).Contents (Elt Ideal))
    (h32 : W (Proc.devRef .tc main_v32) = val_main_v32 (F := Ideal) x0 x2)
    (h3 : W (Proc.devRef .tc main_v3) = val_main_v3 (F := Ideal) x1)
    (h6 : W (Proc.devRef .tc main_v6) = val_main_v6 (F := Ideal) x1)
    (h31 : W (Proc.devRef .tc main_v31) = val_main_v31 (F := Ideal) x1) :
    after (hostOps1 (F := Ideal)) W (Proc.devRef .tc main_v45) = val_main_v45 (F := Ideal) x0 x1 x2 := by
  after_results_simp
  rw [h32, h3, h6, h31]
  rfl

/-- The first bias, laid out as one row. -/
theorem mid1_bias : after (hostOps1 (F := Ideal)) W (Proc.devRef .tc main_v46) = shapeCast S1x128 (W (Proc.devRef .tc main_arg3)) shapeCasts_S128_S1x128 := by
  after_results_simp
  rfl

/-- The stretch leaves the row indices alone. -/
theorem mid1_keep_v3 : after (hostOps1 (F := Ideal)) W (Proc.devRef .tc main_v3) = W (Proc.devRef .tc main_v3) := by
  after_results_simp

/-- The stretch leaves the column indices alone. -/
theorem mid1_keep_v6 : after (hostOps1 (F := Ideal)) W (Proc.devRef .tc main_v6) = W (Proc.devRef .tc main_v6) := by
  after_results_simp

/-- The stretch leaves the normalisation alone. -/
theorem mid1_keep_v31 : after (hostOps1 (F := Ideal)) W (Proc.devRef .tc main_v31) = W (Proc.devRef .tc main_v31) := by
  after_results_simp

/-- The stretch leaves the second weight matrix alone. -/
theorem mid1_keep_arg4 : after (hostOps1 (F := Ideal)) W (Proc.devRef .tc main_arg4) = W (Proc.devRef .tc main_arg4) := by
  after_results_simp

/-- The stretch leaves the second bias alone. -/
theorem mid1_keep_arg5 : after (hostOps1 (F := Ideal)) W (Proc.devRef .tc main_arg5) = W (Proc.devRef .tc main_arg5) := by
  after_results_simp

/-! ## Between the third and the fourth kernel region: the second layer's aggregation -/

set_option maxHeartbeats 4000000 in
/-- The second layer's gather, scale and scatter-add of the class scores. -/
theorem mid3_agg (x0 : (⟨Cert.ReferenceIdeal.S50000x256, .f32⟩ : BufTy).Contents (Elt Ideal)) (x1 : (⟨Cert.ReferenceIdeal.S2x800000, .i32⟩ : BufTy).Contents (Elt Ideal)) (x2 : (⟨Cert.ReferenceIdeal.S256x128, .f32⟩ : BufTy).Contents (Elt Ideal)) (x3 : (⟨Cert.ReferenceIdeal.S128, .f32⟩ : BufTy).Contents (Elt Ideal)) (x4 : (⟨Cert.ReferenceIdeal.S128x40, .f32⟩ : BufTy).Contents (Elt Ideal))
    (h48 : W (Proc.devRef .tc main_v48) = val_main_v50 (F := Ideal) x0 x1 x2 x3 x4)
    (h3 : W (Proc.devRef .tc main_v3) = val_main_v3 (F := Ideal) x1)
    (h6 : W (Proc.devRef .tc main_v6) = val_main_v6 (F := Ideal) x1)
    (h31 : W (Proc.devRef .tc main_v31) = val_main_v31 (F := Ideal) x1) :
    after (hostOps3 (F := Ideal)) W (Proc.devRef .tc main_v61) = val_main_v63 (F := Ideal) x0 x1 x2 x3 x4 := by
  after_results_simp
  rw [h48, h3, h6, h31]
  rfl

/-- The second bias, laid out as one row. -/
theorem mid3_bias : after (hostOps3 (F := Ideal)) W (Proc.devRef .tc main_v62) = shapeCast S1x40 (W (Proc.devRef .tc main_arg5)) shapeCasts_S40_S1x40 := by
  after_results_simp
  rfl

end Cert.Bridge

end
-- ==== Proof.Spec.lean ====
/-
  The mathematics of the two programs, index by index over the extended reals.

  A graph-convolution network of two layers: each layer multiplies the node features by a weight
  matrix (a sum over the feature axis), gathers / scales / scatter-adds along the edges (a host
  chain that both programs share and that is never opened here), and adds a bias; the first layer
  ends in a rectifier, the second in a row-wise log-softmax.  The functions below are what the
  dense pieces compute on WHOLE arrays: both the tiled kernels (25 row blocks of 2000 nodes) and
  the host reference are shown equal to them.
-/
import proofs.«153919_j13262859010221_1_alg».proof.KernelIdeal
import Idealize.ShloMosaic.PureOps.Ideal
import Idealize.ShloMosaic.Lib.ValueIdx

noncomputable section

namespace Cert.Spec

open Idealize.ShloMosaic Idealize.ShloMosaic.ValueIdx Cert.KernelIdeal
open scoped BigOperators

/-- The f32 zero word read as an extended real (kept as the word: both programs hold the same one). -/
abbrev zeroE : EReal := FloatOps.ofBits (F := Ideal) .f32 0x00000000#32

/-- The f32 word of minus infinity read as an extended real: the value a row maximum starts from. -/
abbrev negInfE : EReal := FloatOps.ofBits (F := Ideal) .f32 0xFF800000#32

/-- Node features [50000, 256] times a weight matrix [256, 128]: entry (r, c) sums x(r, k) · w(k, c) over k. -/
def matmulA (x : S50000x256.Idx → EReal) (w : S256x128.Idx → EReal) : S50000x128.Idx → EReal :=
  fun i => ∑ k : Fin 256, x (ix2 (i 0) k) * w (ix2 k (i 1))

/-- Hidden features [50000, 128] times a weight matrix [128, 40]: entry (r, c) sums h(r, k) · w(k, c) over k. -/
def matmulB (h : S50000x128.Idx → EReal) (w : S128x40.Idx → EReal) : S50000x40.Idx → EReal :=
  fun i => ∑ k : Fin 128, h (ix2 (i 0) k) * w (ix2 k (i 1))

/-- The first layer's end: the aggregated features plus the bias row (held as a [1, 128] array), rectified at zero. -/
def biasRelu (a : S50000x128.Idx → EReal) (b : S1x128.Idx → EReal) : S50000x128.Idx → EReal :=
  fun i => max (a i + b (ix2 (0 : Fin 1) (i 1))) zeroE

/-- The logits: the aggregated class scores plus the bias row (held as a [1, 40] array). -/
def addBias (a : S50000x40.Idx → EReal) (b : S1x40.Idx → EReal) : S50000x40.Idx → EReal :=
  fun i => a i + b (ix2 (0 : Fin 1) (i 1))

/-- The maximum of row r of a [50000, 40] array, folded from minus infinity over the 40 classes. -/
def rowMax (l : S50000x40.Idx → EReal) (r : Fin 50000) : EReal :=
  (Finset.univ : Finset (Fin 40)).fold max negInfE (fun k => l (ix2 r k))

/-- The row-wise log-softmax: with z = l − rowMax, the entry is z − log (Σ_k exp z(r, k)). -/
def logSoftmax (l : S50000x40.Idx → EReal) : S50000x40.Idx → EReal :=
  fun i => (l i - rowMax l (i 0)) - Ideal.log (∑ k : Fin 40, Ideal.exp (l (ix2 (i 0) k) - rowMax l (i 0)))

end Cert.Spec

end
-- ==== Proof.Region0.lean ====
/-
  The first dense product, from row blocks to the whole array.

  Region 0 multiplies the node features x [50000, 256] by the first weight matrix w [256, 128] in 25 row blocks of
  2000 nodes.  Over the extended reals the rounding of the operands to bf16 changes nothing and the accumulator
  starts at zero, so each block of the result is Σ_k x(r, k) · w(k, c); the 25 blocks tile the rows, hence the
  array after the region is the product `Cert.Spec.matmulA` of the arrays the region finds.
-/
import proofs.«153919_j13262859010221_1_alg».proof.Proof.Gen.KernelIdeal.Frame
import proofs.«153919_j13262859010221_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.TcCoe Idealize.SL.Sem Idealize.ShloMosaic.ValueIdx Cert.KernelIdeal Cert.KernelIdeal.Gen
open Idealize.ShloMosaic.Pipeline (Dat)
open scoped BigOperators

variable (V : (c : Dev nD) → (b : Ref sig .tc) → Buf (Elt Ideal) ((c : Thread nD τ).loc b))

/-! ## The product block at an index

The body converts both operands to bf16 (no change over the extended reals) and multiplies them into a zero
accumulator: entry (p, q) of the result is the sum over the contracted axis of x(p, k) · w(k, q). -/

/-- Row coordinate of the left operand's index: the output's row. -/
theorem r0_lhs_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
/-- Column coordinate of the left operand's index: the contracted coordinate. -/
theorem r0_lhs_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
/-- Row coordinate of the right operand's index: the contracted coordinate. -/
theorem r0_rhs_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
/-- Column coordinate of the right operand's index: the output's column. -/
theorem r0_rhs_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The body's result at (p, q): Σ_k x(p, k) · w(k, q) over the 256 features. -/
theorem r0_pay_apply (x0 : Vec Ideal S2000x256 .f32) (x1 : Vec Ideal S256x128 .f32) (p : Fin 2000) (q : Fin 128) :
    k0_pay1 x0 x1 (ix2 p q) = ∑ k : Fin 256, x0 (ix2 p k) * x1 (ix2 k q) := by
  unfold k0_pay1
  refine (Ideal.matmul_constant_zero_apply dot_S2000x256_S256x128_S2000x128_1_0_0_1_n_n none _ _ (ix2 p q)).trans ?_
  rw [← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p q) ((ValueIdx.contrEquiv1 dot_S2000x256_S256x128_S2000x128_1_0_0_1_n_n 256 rfl rfl).symm k) = ix2 p k := funext fun a => Fin.ext (by
    match a with
    | ⟨0, _⟩ => exact r0_lhs_0 _ _
    | ⟨1, _⟩ => exact (r0_lhs_1 _ _).trans hk)
  have er : dot_S2000x256_S256x128_S2000x128_1_0_0_1_n_n.rhsIdx (ix2 p q) ((ValueIdx.contrEquiv1 dot_S2000x256_S256x128_S2000x128_1_0_0_1_n_n 256 rfl rfl).symm k) = ix2 k q := funext fun a => Fin.ext (by
    match a with
    | ⟨0, _⟩ => exact (r0_rhs_0 _ _).trans hk
    | ⟨1, _⟩ => exact r0_rhs_1 _ _)
  rw [el, er]
  rfl

/-! ## From blocks to the array

Point t of the 25 handles rows 2000·t … 2000·t + 1999: it reads that row block of x and the whole weight matrix,
and writes the same row block of the product. -/

theorem r0_hz : (![0, 0] : Fin 2 → Nat) = fun _ => 0 := funext fun a => by fin_cases a <;> rfl

/-- The block index maps over the grid: x and the product move down one row block per point, the weight stays. -/
theorem r0_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of x's block at point t is entry (2000·t + p, k) of x. -/
theorem r0_xblk_apply (c : Dev nD) (t : Fin cfg0.N) (y : S2000x256.Idx) (i : S50000x256.Idx)
    (h0 : (i 0).val = t.val * 2000 + (y 0).val) (h1 : (i 1).val = (y 1).val) :
    (iblk0 V c 0 t : Vec Ideal S2000x256 .f32) y = (V c main_arg0 : S50000x256.Idx → EReal) i := by
  obtain ⟨e0, e1, -, -, -, -⟩ := r0_idx t
  unfold iblk0
  rw [View.read_apply]
  show V c main_arg0 _ = V c main_arg0 _
  congr 1
  funext a
  apply Fin.ext
  match a with
  | ⟨0, _⟩ => show win0_0.index t (0 : Fin 2) * 2000 + 1 * (y 0).val = (i 0).val; rw [e0, h0]; omega
  | ⟨1, _⟩ => show win0_0.index t (1 : Fin 2) * 256 + 1 * (y 1).val = (i 1).val; rw [e1, h1]; omega

/-- The weight's block at every point is the weight matrix. -/
theorem r0_wblk_apply (c : Dev nD) (t : Fin cfg0.N) (y : S256x128.Idx) :
    (iblk0 V c 1 t : Vec Ideal S256x128 .f32) y = (V c main_arg2 : S256x128.Idx → EReal) y := by
  obtain ⟨-, -, e2, e3, -, -⟩ := r0_idx t
  unfold iblk0
  rw [View.read_apply]
  show V c main_arg2 _ = V c main_arg2 _
  congr 1
  funext a
  apply Fin.ext
  match a with
  | ⟨0, _⟩ => show win0_1.index t (0 : Fin 2) * 256 + 1 * (y 0).val = (y 0).val; rw [e2]; omega
  | ⟨1, _⟩ => show win0_1.index t (1 : Fin 2) * 128 + 1 * (y 1).val = (y 1).val; rw [e3]; omega

/-- The product of whole arrays at an index, spelt out. -/
theorem r0_matmulA_apply (x : S50000x256.Idx → EReal) (w : S256x128.Idx → EReal) (i : S50000x128.Idx) :
    Cert.Spec.matmulA x w i = ∑ k : Fin 256, x (ix2 (i 0) k) * w (ix2 k (i 1)) := rfl

/-- What point t writes back is row block t of the product of the arrays the region finds. -/
theorem r0_flushed_eq (c : Dev nD) (t : Fin cfg0.N) :
    (dat0 (F := Ideal) V c).flushed 2 t
      = ((cfg0.win 2).blk t).view.read (Elt Ideal) (Cert.Spec.matmulA (V c main_arg0) (V c main_arg2)) := by
  show (cfg0.win 2).cut (grid0.coords t) ((dat0 V c).after 2 t) = _
  rw [after0_2]
  unfold out0_2
  rw [View.canon_unit_zero r0_hz]
  simp only [View.ld_unit_zero (S := S2000x256) r0_hz, View.ld_unit_zero (S := S256x128) r0_hz]
  obtain ⟨-, -, -, -, e4, e5⟩ := r0_idx t
  funext j
  show k0_pay1 (iblk0 V c 0 t) (iblk0 V c 1 t) j
    = Cert.Spec.matmulA (V c main_arg0) (V c main_arg2) (((cfg0.win 2).blk t).view.emb j)
  have hr : ((((cfg0.win 2).blk t).view.emb j) 0).val = t.val * 2000 + (j 0).val := by
    show win0_2.index t (0 : Fin 2) * 2000 + 1 * (j 0).val = _; rw [e4]; omega
  have hc : ((((cfg0.win 2).blk t).view.emb j) 1).val = (j 1).val := by
    show win0_2.index t (1 : Fin 2) * 128 + 1 * (j 1).val = _; rw [e5]; omega
  refine ((congrArg (k0_pay1 (F := Ideal) (iblk0 V c 0 t) (iblk0 V c 1 t)) (eq_ix2 (n0 := 2000) (n1 := 128) j)).trans
    (r0_pay_apply _ _ (j 0) (j 1))).trans ?_
  refine Eq.trans ?_ (r0_matmulA_apply (V c main_arg0) (V c main_arg2) (((cfg0.win 2).blk t).view.emb j)).symm
  refine Finset.sum_congr rfl fun k _ => ?_
  refine congrArg₂ (· * ·) (r0_xblk_apply V c t _ _ hr rfl) ((r0_wblk_apply V c t _).trans (congrArg (V c main_arg2 : S256x128.Idx → EReal) ?_))
  funext a
  apply Fin.ext
  match a with
  | ⟨0, _⟩ => rfl
  | ⟨1, _⟩ => exact hc.symm

/-- An index of the product array lies in point t's block iff each coordinate lies in the block's range. -/
theorem r0_mem_blk (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v32).slice (win0_2.rect t)).set ↔ _
  rw [View.set_slice_whole, Rect.mem_set_unit]
  exact Iff.rfl

/-- Row r of the product lies in the block of point r / 2000: the 25 row blocks tile the 50000 rows. -/
theorem r0_cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by omega⟩, rfl⟩
  obtain ⟨-, -, -, -, e4, e5⟩ := r0_idx t
  refine ⟨t, flush0_2 t, ?_⟩
  rw [r0_mem_blk]
  intro a
  match a with
  | ⟨0, _⟩ =>
    show win0_2.index t (0 : Fin 2) * 2000 ≤ (i 0).val ∧ (i 0).val < win0_2.index t (0 : Fin 2) * 2000 + 2000
    rw [e4, ht]; omega
  | ⟨1, _⟩ =>
    show win0_2.index t (1 : Fin 2) * 128 ≤ (i 1).val ∧ (i 1).val < win0_2.index t (1 : Fin 2) * 128 + 128
    rw [e5]; omega

/-- THE FIRST PRODUCT: after the 25 points the result array holds x · w, entry by entry. -/
theorem region0_array (c : Dev nD) :
    (dat0 (F := Ideal) V c).arrAt 2 cfg0.N = Cert.Spec.matmulA (V c main_arg0) (V c main_arg2) :=
  (dat0 (F := Ideal) V c).arrAt_eq_of_cover 2 (Cert.Spec.matmulA (V c main_arg0) (V c main_arg2))
    (fun t _ => r0_flushed_eq V c t) r0_cover

end Cert.Bridge

end
-- ==== Proof.Region1.lean ====
/-
  The bias + rectifier region: each of the 25 row blocks of 2000 nodes gets the bias row added to every row and is
  rectified at zero; together the blocks tile the [50000, 128] array, which therefore ends holding the rectified
  biased features at every index.
-/
import proofs.«153919_j13262859010221_1_alg».proof.Proof.Gen.KernelIdeal.Frame
import proofs.«153919_j13262859010221_1_alg».proof.Proof.Spec
import Idealize.ShloMosaic.Lib.Pipeline.Value
import Idealize.ShloMosaic.Lib.ValueIdx
import Idealize.ShloMosaic.PureOps.Ideal

set_option maxRecDepth 16384

noncomputable section

namespace Cert.Bridge

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-- The zero offset of a whole-block access, as a constant function. -/
theorem r1_hz : (![0, 0] : Fin 2 → Nat) = fun _ => 0 := funext fun a => by fin_cases a <;> rfl

/-- The body's arithmetic at one entry (p, q) of a block: the feature plus the bias of column q (the bias row
    is broadcast down the rows), rectified at zero. -/
theorem r1_pay_apply (x0 : Vec Ideal S2000x128 .f32) (x1 : Vec Ideal S1x128 .f32) (p : Fin 2000) (q : Fin 128) :
    k1_pay1 (F := Ideal) x0 x1 (ix2 p q) = max (x0 (ix2 p q) + x1 (ix2 (0 : Fin 1) q)) Cert.Spec.zeroE := by
  unfold k1_pay1
  rw [shapeCast_self, shapeCast_self]
  refine (maximumf_apply _ _ _).trans ?_
  refine congrArg₂ max ?_ rfl
  refine (addf_apply _ _ _).trans ?_
  refine congrArg (x0 (ix2 p q) + ·) ?_
  refine broadcastTo_apply x1 _ (ix2 p q) (ix2 (0 : Fin 1) q) ?_
  intro a
  match a with
  | ⟨0, _⟩ => rfl
  | ⟨1, _⟩ => rfl

/-- The same at any index of the block. -/
theorem r1_pay_at (x0 : Vec Ideal S2000x128 .f32) (x1 : Vec Ideal S1x128 .f32) (y : S2000x128.Idx) :
    k1_pay1 (F := Ideal) x0 x1 y = max (x0 y + x1 (ix2 (0 : Fin 1) (y 1))) Cert.Spec.zeroE := by
  obtain ⟨p, q, rfl⟩ : ∃ (p : Fin 2000) (q : Fin 128), y = ix2 p q := ⟨y 0, y 1, eq_ix2 y⟩
  exact r1_pay_apply x0 x1 p q

/-- The block index maps over the 25 points: the feature and output blocks are row block t, column block 0; the
    bias row is the one block (0, 0) at every point. -/
theorem r1_idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The feature block at point t is rows 2000 t … 2000 t + 1999 of the aggregated features. -/
theorem r1_iblk0_apply (c : Dev nD) (t : Fin cfg1.N) (x : S2000x128.Idx) (k : S50000x128.Idx)
    (hk0 : (k 0).val = 2000 * t.val + (x 0).val) (hk1 : (k 1).val = (x 1).val) :
    (iblk1 (F := Ideal) V c 0 t : Vec Ideal S2000x128 .f32) x = (V c main_v45 : S50000x128.Idx → Elt Ideal .f32) k := by
  obtain ⟨e0, e1, -⟩ := r1_idx_facts t
  unfold iblk1
  rw [View.read_apply]
  show V c main_v45 _ = V c main_v45 _
  congr 1
  funext a
  apply Fin.ext
  match a with
  | ⟨0, _⟩ => show win1_0.index t 0 * 2000 + 1 * (x 0).val = (k 0).val; rw [e0, hk0]; omega
  | ⟨1, _⟩ => show win1_0.index t 1 * 128 + 1 * (x 1).val = (k 1).val; rw [e1, hk1]; omega

/-- The bias block at every point is the whole bias row. -/
theorem r1_iblk1_apply (c : Dev nD) (t : Fin cfg1.N) (x : S1x128.Idx) (k : S1x128.Idx)
    (hk1 : (k 1).val = (x 1).val) :
    (iblk1 (F := Ideal) V c 1 t : Vec Ideal S1x128 .f32) x = (V c main_v46 : S1x128.Idx → Elt Ideal .f32) k := by
  obtain ⟨-, -, e2, e3, -⟩ := r1_idx_facts t
  have hx0 : (x 0).val < 1 := (x 0).isLt
  have hk0 : (k 0).val < 1 := (k 0).isLt
  unfold iblk1
  rw [View.read_apply]
  show V c main_v46 _ = V c main_v46 _
  congr 1
  funext a
  apply Fin.ext
  match a with
  | ⟨0, _⟩ => show win1_1.index t 0 * 1 + 1 * (x 0).val = (k 0).val; rw [e2]; omega
  | ⟨1, _⟩ => show win1_1.index t 1 * 128 + 1 * (x 1).val = (k 1).val; rw [e3, hk1]; omega

/-- One entry of what the body leaves at point t: the rectified biased feature of the array's row 2000 t + p. -/
theorem r1_block_eq (c : Dev nD) (t : Fin cfg1.N) (y : S2000x128.Idx) (k : S50000x128.Idx)
    (hk0 : (k 0).val = 2000 * t.val + (y 0).val) (hk1 : (k 1).val = (y 1).val) :
    k1_pay1 (F := Ideal) (iblk1 V c 0 t) (iblk1 V c 1 t) y = Cert.Spec.biasRelu (V c main_v45) (V c main_v46) k := by
  rw [r1_pay_at, r1_iblk0_apply V c t y k hk0 hk1,
    r1_iblk1_apply V c t (ix2 (0 : Fin 1) (y 1)) (ix2 (0 : Fin 1) (k 1)) hk1]
  rfl

/-- What point t writes back is block t of the rectified biased features. -/
theorem r1_flushed_eq (c : Dev nD) (t : Fin cfg1.N) :
    (dat1 (F := Ideal) V c).flushed 2 t = ((cfg1.win 2).blk t).view.read (Elt Ideal) (Cert.Spec.biasRelu (V c main_v45) (V c main_v46)) := by
  show (cfg1.win 2).cut (grid1.coords t) ((dat1 (F := Ideal) V c).after 2 t) = _
  rw [after1_2]
  unfold out1_2
  rw [View.canon_unit_zero r1_hz]
  simp only [View.ld_unit_zero (S := S2000x128) r1_hz, View.ld_unit_zero (S := S1x128) r1_hz]
  obtain ⟨-, -, -, -, e4, e5⟩ := r1_idx_facts t
  funext j
  have hj0 : (j 0).val < 2000 := (j 0).isLt
  have hj1 : (j 1).val < 128 := (j 1).isLt
  show k1_pay1 (F := Ideal) (iblk1 V c 0 t) (iblk1 V c 1 t) ((cfg1.win 2).xinj (grid1.coords t) j)
    = Cert.Spec.biasRelu (V c main_v45) (V c main_v46) (((cfg1.win 2).blk t).view.emb j)
  refine r1_block_eq V c t _ _ ?_ ?_
  · show win1_2.index t (0 : Fin 2) * 2000 + 1 * (j 0).val = 2000 * t.val + (j 0).val
    rw [e4]; omega
  · show win1_2.index t (1 : Fin 2) * 128 + 1 * (j 1).val = (j 1).val
    rw [e5]; omega

/-- An index of the array is in point t's output block iff each coordinate is in the block's range on its axis. -/
theorem r1_mem_blk (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v47).slice (win1_2.rect t)).set ↔ _
  rw [View.set_slice_whole, Rect.mem_set_unit]
  exact Iff.rfl

/-- Every row r of the array lies in the block of point r / 2000: the 25 blocks of 2000 rows tile the 50000 rows. -/
theorem r1_cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : grid1.N = 25 := N_1
  obtain ⟨t, ht⟩ : ∃ t : Fin cfg1.N, t.val = (i 0).val / 2000 :=
    ⟨⟨(i 0).val / 2000, by show _ < grid1.N; omega⟩, rfl⟩
  obtain ⟨-, -, -, -, e4, e5⟩ := r1_idx_facts t
  refine ⟨t, flush1_2 t, ?_⟩
  rw [r1_mem_blk]
  intro a
  match a with
  | ⟨0, _⟩ =>
    show win1_2.index t (0 : Fin 2) * 2000 ≤ (i 0).val ∧ (i 0).val < win1_2.index t (0 : Fin 2) * 2000 + 2000
    rw [e4]; omega
  | ⟨1, _⟩ =>
    show win1_2.index t (1 : Fin 2) * 128 ≤ (i 1).val ∧ (i 1).val < win1_2.index t (1 : Fin 2) * 128 + 128
    rw [e5]; omega

/-- The array the bias + rectifier region leaves: the aggregated features plus the bias row, rectified at zero,
    at every index. -/
theorem region1_array (c : Dev nD) :
    (dat1 (F := Ideal) V c).arrAt 2 cfg1.N = Cert.Spec.biasRelu (V c main_v45) (V c main_v46) :=
  (dat1 (F := Ideal) V c).arrAt_eq_of_cover 2 (Cert.Spec.biasRelu (V c main_v45) (V c main_v46))
    (fun t _ => r1_flushed_eq V c t) r1_cover

end Cert.Bridge

end
-- ==== Proof.Region2.lean ====
/-
  The second dense product, from row blocks to the whole array.

  Region 2 multiplies the hidden features h [50000, 128] by the second weight matrix w [128, 40] in 25 row blocks
  of 2000 nodes.  Over the extended reals the rounding of the operands to bf16 changes nothing and the accumulator
  starts at zero, so each block of the result is Σ_k h(r, k) · w(k, c); the 25 blocks tile the rows, hence the
  array after the region is the product `Cert.Spec.matmulB` of the arrays the region finds.
-/
import proofs.«153919_j13262859010221_1_alg».proof.Proof.Gen.KernelIdeal.Frame
import proofs.«153919_j13262859010221_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.TcCoe Idealize.SL.Sem Idealize.ShloMosaic.ValueIdx Cert.KernelIdeal Cert.KernelIdeal.Gen
open Idealize.ShloMosaic.Pipeline (Dat)
open scoped BigOperators

variable (V : (c : Dev nD) → (b : Ref sig .tc) → Buf (Elt Ideal) ((c : Thread nD τ).loc b))

/-! ## The product block at an index

The body converts both operands to bf16 (no change over the extended reals) and multiplies them into a zero
accumulator: entry (p, q) of the result is the sum over the contracted axis of x(p, k) · w(k, q). -/

/-- Row coordinate of the left operand's index: the output's row. -/
theorem r2_lhs_0 (i : S2000x40.Idx) (q : dot_S2000x128_S128x40_S2000x40_1_0_0_1_n_n.contr.Idx) :
    (dot_S2000x128_S128x40_S2000x40_1_0_0_1_n_n.lhsIdx i q 0).val = (i 0).val := by
  unfold DotDims.lhsIdx
  rw [dif_neg (show ¬(0 : Fin S2000x128.rank) ∈ dot_S2000x128_S128x40_S2000x40_1_0_0_1_n_n.lhsBatch by decide), dif_pos (show (0 : Fin S2000x128.rank) ∈ dot_S2000x128_S128x40_S2000x40_1_0_0_1_n_n.lhsNonContracting by decide)]
  rfl
/-- Column coordinate of the left operand's index: the contracted coordinate. -/
theorem r2_lhs_1 (i : S2000x40.Idx) (q : dot_S2000x128_S128x40_S2000x40_1_0_0_1_n_n.contr.Idx) :
    (dot_S2000x128_S128x40_S2000x40_1_0_0_1_n_n.lhsIdx i q 1).val = (q ⟨0, by decide⟩).val :=
  dot_S2000x128_S128x40_S2000x40_1_0_0_1_n_n.lhsIdx_val_of_single rfl i q
/-- Row coordinate of the right operand's index: the contracted coordinate. -/
theorem r2_rhs_0 (i : S2000x40.Idx) (q : dot_S2000x128_S128x40_S2000x40_1_0_0_1_n_n.contr.Idx) :
    (dot_S2000x128_S128x40_S2000x40_1_0_0_1_n_n.rhsIdx i q 0).val = (q ⟨0, by decide⟩).val :=
  dot_S2000x128_S128x40_S2000x40_1_0_0_1_n_n.rhsIdx_val_of_single rfl i q
/-- Column coordinate of the right operand's index: the output's column. -/
theorem r2_rhs_1 (i : S2000x40.Idx) (q : dot_S2000x128_S128x40_S2000x40_1_0_0_1_n_n.contr.Idx) :
    (dot_S2000x128_S128x40_S2000x40_1_0_0_1_n_n.rhsIdx i q 1).val = (i 1).val := by
  unfold DotDims.rhsIdx
  rw [dif_neg (show ¬(1 : Fin S128x40.rank) ∈ dot_S2000x128_S128x40_S2000x40_1_0_0_1_n_n.rhsBatch by decide), dif_pos (show (1 : Fin S128x40.rank) ∈ dot_S2000x128_S128x40_S2000x40_1_0_0_1_n_n.rhsNonContracting by decide)]
  rfl

/-- The body's result at (p, q): Σ_k x(p, k) · w(k, q) over the 128 hidden features. -/
theorem r2_pay_apply (x0 : Vec Ideal S2000x128 .f32) (x1 : Vec Ideal S128x40 .f32) (p : Fin 2000) (q : Fin 40) :
    k2_pay1 x0 x1 (ix2 p q) = ∑ k : Fin 128, x0 (ix2 p k) * x1 (ix2 k q) := by
  unfold k2_pay1
  rw [shapeCast_self]
  refine (Ideal.matmul_constant_zero_apply dot_S2000x128_S128x40_S2000x40_1_0_0_1_n_n none _ _ (ix2 p q)).trans ?_
  rw [← Equiv.sum_comp (ValueIdx.contrEquiv1 dot_S2000x128_S128x40_S2000x40_1_0_0_1_n_n 128 rfl rfl).symm]
  refine Finset.sum_congr rfl fun k _ => ?_
  have hk := ValueIdx.contrEquiv1_symm_val dot_S2000x128_S128x40_S2000x40_1_0_0_1_n_n 128 rfl rfl k
  have el : dot_S2000x128_S128x40_S2000x40_1_0_0_1_n_n.lhsIdx (ix2 p q) ((ValueIdx.contrEquiv1 dot_S2000x128_S128x40_S2000x40_1_0_0_1_n_n 128 rfl rfl).symm k) = ix2 p k := funext fun a => Fin.ext (by
    match a with
    | ⟨0, _⟩ => exact r2_lhs_0 _ _
    | ⟨1, _⟩ => exact (r2_lhs_1 _ _).trans hk)
  have er : dot_S2000x128_S128x40_S2000x40_1_0_0_1_n_n.rhsIdx (ix2 p q) ((ValueIdx.contrEquiv1 dot_S2000x128_S128x40_S2000x40_1_0_0_1_n_n 128 rfl rfl).symm k) = ix2 k q := funext fun a => Fin.ext (by
    match a with
    | ⟨0, _⟩ => exact (r2_rhs_0 _ _).trans hk
    | ⟨1, _⟩ => exact r2_rhs_1 _ _)
  rw [el, er]
  rfl

/-! ## From blocks to the array

Point t of the 25 handles rows 2000·t … 2000·t + 1999: it reads that row block of x and the whole weight matrix,
and writes the same row block of the product. -/

theorem r2_hz : (![0, 0] : Fin 2 → Nat) = fun _ => 0 := funext fun a => by fin_cases a <;> rfl

/-- The block index maps over the grid: x and the product move down one row block per point, the weight stays. -/
theorem r2_idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, k) of x's block at point t is entry (2000·t + p, k) of x. -/
theorem r2_xblk_apply (c : Dev nD) (t : Fin cfg2.N) (y : S2000x128.Idx) (i : S50000x128.Idx)
    (h0 : (i 0).val = t.val * 2000 + (y 0).val) (h1 : (i 1).val = (y 1).val) :
    (iblk2 V c 0 t : Vec Ideal S2000x128 .f32) y = (V c main_v47 : S50000x128.Idx → EReal) i := by
  obtain ⟨e0, e1, -, -, -, -⟩ := r2_idx t
  unfold iblk2
  rw [View.read_apply]
  show V c main_v47 _ = V c main_v47 _
  congr 1
  funext a
  apply Fin.ext
  match a with
  | ⟨0, _⟩ => show win2_0.index t (0 : Fin 2) * 2000 + 1 * (y 0).val = (i 0).val; rw [e0, h0]; omega
  | ⟨1, _⟩ => show win2_0.index t (1 : Fin 2) * 128 + 1 * (y 1).val = (i 1).val; rw [e1, h1]; omega

/-- The weight's block at every point is the weight matrix. -/
theorem r2_wblk_apply (c : Dev nD) (t : Fin cfg2.N) (y : S128x40.Idx) :
    (iblk2 V c 1 t : Vec Ideal S128x40 .f32) y = (V c main_arg4 : S128x40.Idx → EReal) y := by
  obtain ⟨-, -, e2, e3, -, -⟩ := r2_idx t
  unfold iblk2
  rw [View.read_apply]
  show V c main_arg4 _ = V c main_arg4 _
  congr 1
  funext a
  apply Fin.ext
  match a with
  | ⟨0, _⟩ => show win2_1.index t (0 : Fin 2) * 128 + 1 * (y 0).val = (y 0).val; rw [e2]; omega
  | ⟨1, _⟩ => show win2_1.index t (1 : Fin 2) * 40 + 1 * (y 1).val = (y 1).val; rw [e3]; omega

/-- The product of whole arrays at an index, spelt out. -/
theorem r2_matmulB_apply (x : S50000x128.Idx → EReal) (w : S128x40.Idx → EReal) (i : S50000x40.Idx) :
    Cert.Spec.matmulB x w i = ∑ k : Fin 128, x (ix2 (i 0) k) * w (ix2 k (i 1)) := rfl

/-- What point t writes back is row block t of the product of the arrays the region finds. -/
theorem r2_flushed_eq (c : Dev nD) (t : Fin cfg2.N) :
    (dat2 (F := Ideal) V c).flushed 2 t
      = ((cfg2.win 2).blk t).view.read (Elt Ideal) (Cert.Spec.matmulB (V c main_v47) (V c main_arg4)) := by
  show (cfg2.win 2).cut (grid2.coords t) ((dat2 V c).after 2 t) = _
  rw [after2_2]
  unfold out2_2
  rw [View.canon_unit_zero r2_hz]
  simp only [View.ld_unit_zero (S := S2000x128) r2_hz, View.ld_unit_zero (S := S128x40) r2_hz]
  obtain ⟨-, -, -, -, e4, e5⟩ := r2_idx t
  funext j
  show k2_pay1 (iblk2 V c 0 t) (iblk2 V c 1 t) j
    = Cert.Spec.matmulB (V c main_v47) (V c main_arg4) (((cfg2.win 2).blk t).view.emb j)
  have hr : ((((cfg2.win 2).blk t).view.emb j) 0).val = t.val * 2000 + (j 0).val := by
    show win2_2.index t (0 : Fin 2) * 2000 + 1 * (j 0).val = _; rw [e4]; omega
  have hc : ((((cfg2.win 2).blk t).view.emb j) 1).val = (j 1).val := by
    show win2_2.index t (1 : Fin 2) * 40 + 1 * (j 1).val = _; rw [e5]; omega
  refine ((congrArg (k2_pay1 (F := Ideal) (iblk2 V c 0 t) (iblk2 V c 1 t)) (eq_ix2 (n0 := 2000) (n1 := 40) j)).trans
    (r2_pay_apply _ _ (j 0) (j 1))).trans ?_
  refine Eq.trans ?_ (r2_matmulB_apply (V c main_v47) (V c main_arg4) (((cfg2.win 2).blk t).view.emb j)).symm
  refine Finset.sum_congr rfl fun k _ => ?_
  refine congrArg₂ (· * ·) (r2_xblk_apply V c t _ _ hr rfl) ((r2_wblk_apply V c t _).trans (congrArg (V c main_arg4 : S128x40.Idx → EReal) ?_))
  funext a
  apply Fin.ext
  match a with
  | ⟨0, _⟩ => rfl
  | ⟨1, _⟩ => exact hc.symm

/-- An index of the product array lies in point t's block iff each coordinate lies in the block's range. -/
theorem r2_mem_blk (t : Fin cfg2.N) (i : S50000x40.Idx) :
    i ∈ ((cfg2.win 2).blk t).view.set ↔ ∀ a : Fin 2, win2_2.index t a * S2000x40.size a ≤ (i a).val
      ∧ (i a).val < win2_2.index t a * S2000x40.size a + S2000x40.size a := by
  show i ∈ ((View.whole main_v48).slice (win2_2.rect t)).set ↔ _
  rw [View.set_slice_whole, Rect.mem_set_unit]
  exact Iff.rfl

/-- Row r of the product lies in the block of point r / 2000: the 25 row blocks tile the 50000 rows. -/
theorem r2_cover (i : S50000x40.Idx) :
    ∃ t : Fin cfg2.N, (cfg2.win 2).flush t = true ∧ i ∈ ((cfg2.win 2).blk t).view.set := by
  have hi0 : (i 0).val < 50000 := (i 0).isLt
  have hi1 : (i 1).val < 40 := (i 1).isLt
  have hN : cfg2.N = 25 := N_2
  obtain ⟨t, ht⟩ : ∃ t : Fin cfg2.N, t.val = (i 0).val / 2000 := ⟨⟨(i 0).val / 2000, by omega⟩, rfl⟩
  obtain ⟨-, -, -, -, e4, e5⟩ := r2_idx t
  refine ⟨t, flush2_2 t, ?_⟩
  rw [r2_mem_blk]
  intro a
  match a with
  | ⟨0, _⟩ =>
    show win2_2.index t (0 : Fin 2) * 2000 ≤ (i 0).val ∧ (i 0).val < win2_2.index t (0 : Fin 2) * 2000 + 2000
    rw [e4, ht]; omega
  | ⟨1, _⟩ =>
    show win2_2.index t (1 : Fin 2) * 40 ≤ (i 1).val ∧ (i 1).val < win2_2.index t (1 : Fin 2) * 40 + 40
    rw [e5]; omega

/-- THE SECOND PRODUCT: after the 25 points the result array holds x · w, entry by entry. -/
theorem region2_array (c : Dev nD) :
    (dat2 (F := Ideal) V c).arrAt 2 cfg2.N = Cert.Spec.matmulB (V c main_v47) (V c main_arg4) :=
  (dat2 (F := Ideal) V c).arrAt_eq_of_cover 2 (Cert.Spec.matmulB (V c main_v47) (V c main_arg4))
    (fun t _ => r2_flushed_eq V c t) r2_cover

end Cert.Bridge

end
-- ==== Proof.Region3.lean ====
/-
  The last dense piece: bias plus row-wise log-softmax, 25 row blocks of 2000 nodes.

  At each grid point the body reads a [2000, 40] block of the aggregated class scores and the [1, 40] bias row, and
  writes two blocks: the logits (scores plus bias) and the log-probabilities z − log Σ exp z with z = logits − row
  maximum.  Both reductions run along the class axis, inside a row, and a row of a block is a row of the array
  (row p of block t is row 2000 t + p); so each written block is a block of ONE function of the whole arrays, and
  the 25 blocks tile the 50000 rows.
-/
import proofs.«153919_j13262859010221_1_alg».proof.Proof.Gen.KernelIdeal.Frame
import proofs.«153919_j13262859010221_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.TcCoe Idealize.SL.Sem Idealize.ShloMosaic.ValueIdx Cert.KernelIdeal Cert.KernelIdeal.Gen
open Idealize.ShloMosaic.Pipeline (Dat)
open scoped BigOperators

variable (V : (c : Dev nD) → (b : Ref sig .tc) → Buf (Elt Ideal) ((c : Thread nD τ).loc b))

/-! ## The keepdims column forms, and the logits payload at an index -/

/-- A column of `n` entries cast to an `[n, 1]` array reads, at `(p, u)`, the column's entry `p`. -/
theorem r3_cast_col {α : Type} {n : ℕ} (x : (⟨1, ![n]⟩ : Shape).Idx → α) (h : (⟨1, ![n]⟩ : Shape).ShapeCasts ⟨2, ![n, 1]⟩)
    (p : Fin n) (u : Fin 1) : shapeCast ⟨2, ![n, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[n, 1]` column broadcast to `[n, b]` reads, at `(p, q)`, the column's entry of row `p`. -/
theorem r3_bcast_col {α : Type} {n b : ℕ} (v : (⟨2, ![n, 1]⟩ : Shape).Idx → α) (h : (⟨2, ![n, 1]⟩ : Shape).Broadcasts ⟨2, ![n, b]⟩)
    (p : Fin n) (q : Fin b) : broadcastTo ⟨2, ![n, b]⟩ v h (ix2 p q) = v (ix2 p (0 : Fin 1)) := by
  refine broadcastTo_apply v h (ix2 p q) (ix2 p (0 : Fin 1)) fun ax => ?_
  match ax with
  | ⟨0, _⟩ =>
    show p.val = if n = 1 then 0 else p.val
    split
    · have := p.isLt; omega
    · rfl
  | ⟨1, _⟩ => rfl

/-- The logits payload at an index: the block's entry plus the bias row's entry of that column. -/
theorem r3_pay1_apply (x0 : Vec Ideal S2000x40 .f32) (x1 : Vec Ideal S1x40 .f32) (p : Fin 2000) (q : Fin 40) :
    k3_pay1 x0 x1 (ix2 p q) = x0 (ix2 p q) + x1 (ix2 (0 : Fin 1) q) := by
  unfold k3_pay1
  show shapeCast S2000x40 x0 _ (ix2 p q) + broadcastTo S2000x40 (shapeCast S1x40 x1 _) _ (ix2 p q) = _
  rw [shapeCast_self, shapeCast_self, broadcastTo_1b_ab_apply]

/-! ## The log-softmax payload at an index -/

/-- The maximum of row `p` of a block of logits, folded from minus infinity over the 40 classes. -/
def r3_bmax (L : S2000x40.Idx → EReal) (p : Fin 2000) : EReal :=
  (Finset.univ : Finset (Fin 40)).fold max Cert.Spec.negInfE (fun k => L (ix2 p k))

theorem r3_exp_apply {s : Shape} {φ : FTy} (a : FVec Ideal s φ) (i : s.Idx) :
    Idealize.ShloMosaic.exp a i = Ideal.exp (a i) := rfl

theorem r3_log_apply {s : Shape} {φ : FTy} (a : FVec Ideal s φ) (i : s.Idx) :
    Idealize.ShloMosaic.log a i = Ideal.log (a i) := rfl

/-- The keepdims row maximum, broadcast back over the classes, read at `(p, q)`: row `p`'s maximum. -/
theorem r3_rowmax_apply (L : FVec Ideal S2000x40 .f32) (p : Fin 2000) (q : Fin 40) :
    broadcastTo S2000x40 (shapeCast S2000x1 (multiReduction (F := Ideal) .maximumf [1] S2000 L 0xFF800000#32 reduces_S2000x40_S2000 (.inl rfl) rfl) shapeCasts_S2000_S2000x1) broadcasts_S2000x1_S2000x40 (ix2 p q) = r3_bmax L p := by
  rw [r3_bcast_col, r3_cast_col]
  refine (Ideal.multiReduction_maximumf_single L _ reduces_S2000x40_S2000 (.inl rfl) rfl (ix1 p)).trans ?_
  unfold r3_bmax
  refine congrArg (fun f => (Finset.univ : Finset (Fin 40)).fold max Cert.Spec.negInfE f) ?_
  funext k
  refine congrArg L (funext fun a => Fin.ext ?_)
  match a with
  | ⟨0, _⟩ => rfl
  | ⟨1, _⟩ => rfl

/-- The log-probability payload at an index: with z = logits − row maximum, z − log Σ_k exp z(p, k). -/
theorem r3_pay2_apply (x0 : Vec Ideal S2000x40 .f32) (x1 : Vec Ideal S1x40 .f32) (p : Fin 2000) (q : Fin 40) :
    k3_pay2 x0 x1 (ix2 p q) = (k3_pay1 x0 x1 (ix2 p q) - r3_bmax (k3_pay1 x0 x1) p)
      - Ideal.log (∑ k : Fin 40, Ideal.exp (k3_pay1 x0 x1 (ix2 p k) - r3_bmax (k3_pay1 x0 x1) p)) := by
  unfold k3_pay2
  generalize k3_pay1 x0 x1 = L
  simp only [subf_apply]
  rw [r3_rowmax_apply L p q, r3_bcast_col, r3_log_apply, r3_cast_col]
  refine congrArg (fun s => L (ix2 p q) - r3_bmax L p - Ideal.log s) ?_
  refine (Ideal.multiReduction_add_single _ _ reduces_S2000x40_S2000 (.inl rfl) rfl (ix1 p)).trans ?_
  refine Finset.sum_congr rfl fun k _ => ?_
  have hk : reduces_S2000x40_S2000.lift (ix1 p) k = (ix2 p (k : Fin 40) : S2000x40.Idx) :=
    funext fun a => Fin.ext (match a with | ⟨0, _⟩ => rfl | ⟨1, _⟩ => rfl)
  rw [hk, r3_exp_apply, subf_apply]
  exact congrArg (fun m => Ideal.exp (L (ix2 p (k : Fin 40)) - m)) (r3_rowmax_apply L p k)

/-! ## From blocks to the array -/

theorem r3_hz : (![0, 0] : Fin 2 → Nat) = fun _ => 0 := funext fun a => by fin_cases a <;> rfl

/-- The index maps over the grid: the scores' block and both outputs' blocks at point `t` are row block `t`; the bias row's
    block is always the one block it has. -/
theorem r3_idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- Row `p` of block `t` is row `2000 t + p` of the array. -/
def r3_row (t : Fin cfg3.N) (p : Fin 2000) : Fin 50000 :=
  ⟨2000 * t.val + p.val, by
    have ht : t.val < 25 := lt_of_lt_of_eq t.isLt N_3
    have hp := p.isLt
    omega⟩

/-- The scores' block at point `t`, read at an index: the array at the same column of row `2000 t + p`. -/
theorem r3_iblk0_apply (c : Dev nD) (t : Fin cfg3.N) (x : S2000x40.Idx) (k : S50000x40.Idx)
    (hk0 : (k 0).val = 2000 * t.val + (x 0).val) (hk1 : (k 1).val = (x 1).val) :
    (iblk3 V c 0 t : Vec Ideal S2000x40 .f32) x = (V c main_v61 : S50000x40.Idx → EReal) k := by
  obtain ⟨e0, e1, -⟩ := r3_idx t
  unfold iblk3
  rw [View.read_apply]
  show (V c main_v61 : S50000x40.Idx → EReal) (((cfg3.win 0).blk t).view.emb x) = _
  refine congrArg (V c main_v61 : S50000x40.Idx → EReal) (funext fun a => Fin.ext ?_)
  match a with
  | ⟨0, _⟩ => show win3_0.index t (0 : Fin 2) * 2000 + 1 * (x 0).val = (k 0).val; rw [e0, hk0]; omega
  | ⟨1, _⟩ => show win3_0.index t (1 : Fin 2) * 40 + 1 * (x 1).val = (k 1).val; rw [e1, hk1]; omega

/-- The bias row's block at any point is the bias row. -/
theorem r3_iblk1_apply (c : Dev nD) (t : Fin cfg3.N) (x : S1x40.Idx) :
    (iblk3 V c 1 t : Vec Ideal S1x40 .f32) x = (V c main_v62 : S1x40.Idx → EReal) x := by
  obtain ⟨-, -, e2, e3, -⟩ := r3_idx t
  unfold iblk3
  rw [View.read_apply]
  show (V c main_v62 : S1x40.Idx → EReal) (((cfg3.win 1).blk t).view.emb x) = _
  refine congrArg (V c main_v62 : S1x40.Idx → EReal) (funext fun a => Fin.ext ?_)
  match a with
  | ⟨0, _⟩ => show win3_1.index t (0 : Fin 2) * 1 + 1 * (x 0).val = (x 0).val; rw [e2]; omega
  | ⟨1, _⟩ => show win3_1.index t (1 : Fin 2) * 40 + 1 * (x 1).val = (x 1).val; rw [e3]; omega

/-- The logits block of point `t` is rows `2000 t … 2000 t + 1999` of the logits array. -/
theorem r3_blk_logits (c : Dev nD) (t : Fin cfg3.N) (p : Fin 2000) (q : Fin 40) :
    k3_pay1 (iblk3 V c 0 t) (iblk3 V c 1 t) (ix2 p q)
      = Cert.Spec.addBias (V c main_v61) (V c main_v62) (ix2 (r3_row t p) q) := by
  rw [r3_pay1_apply, r3_iblk0_apply V c t (ix2 p q) (ix2 (r3_row t p) q) rfl rfl, r3_iblk1_apply]
  rfl

/-- Where the logits window's block index `(p, q)` at point `t` lies in the array. -/
theorem r3_emb2 (t : Fin cfg3.N) (p : Fin 2000) (q : Fin 40) :
    ((cfg3.win 2).blk t).view.emb (ix2 p q) = (ix2 (r3_row t p) q : S50000x40.Idx) := by
  obtain ⟨-, -, -, -, e4, e5, -, -⟩ := r3_idx t
  funext a; apply Fin.ext
  match a with
  | ⟨0, _⟩ => show win3_2.index t (0 : Fin 2) * 2000 + 1 * p.val = 2000 * t.val + p.val; rw [e4]; omega
  | ⟨1, _⟩ => show win3_2.index t (1 : Fin 2) * 40 + 1 * q.val = q.val; rw [e5]; omega

/-- What point `t` writes back through the logits window is block `t` of the logits. -/
theorem r3_flushed2 (c : Dev nD) (t : Fin cfg3.N) :
    (dat3 (F := Ideal) V c).flushed 2 t
      = ((cfg3.win 2).blk t).view.read (Elt Ideal) (Cert.Spec.addBias (V c main_v61) (V c main_v62)) := by
  show (cfg3.win 2).cut (grid3.coords t) ((dat3 V c).after 2 t) = _
  rw [after3_2]
  unfold out3_2
  rw [View.canon_unit_zero r3_hz]
  simp only [View.ld_unit_zero (S := S2000x40) r3_hz, View.ld_unit_zero (S := S1x40) r3_hz]
  refine funext fun (j : S2000x40.Idx) => ?_
  obtain ⟨p, q, rfl⟩ : ∃ p q, j = ix2 p q := ⟨j 0, j 1, eq_ix2 j⟩
  show k3_pay1 (iblk3 V c 0 t) (iblk3 V c 1 t) (ix2 p q)
    = Cert.Spec.addBias (V c main_v61) (V c main_v62) (((cfg3.win 2).blk t).view.emb (ix2 p q))
  rw [r3_emb2, r3_blk_logits]

/-- An index of the array is in point `t`'s block iff each coordinate is in the block's range on its axis. -/
theorem r3_mem_blk2 (t : Fin cfg3.N) (i : S50000x40.Idx) :
    i ∈ ((cfg3.win 2).blk t).view.set ↔ ∀ a : Fin 2, win3_2.index t a * S2000x40.size a ≤ (i a).val ∧ (i a).val < win3_2.index t a * S2000x40.size a + S2000x40.size a := by
  show i ∈ ((View.whole main_v63_0).slice (win3_2.rect t)).set ↔ _
  rw [View.set_slice_whole, Rect.mem_set_unit]
  exact Iff.rfl

/-- Every row lies in the block of the point `row / 2000`. -/
theorem r3_cover2 (i : S50000x40.Idx) :
    ∃ t : Fin cfg3.N, (cfg3.win 2).flush t = true ∧ i ∈ ((cfg3.win 2).blk t).view.set := by
  have hi0 : (i 0).val < 50000 := (i 0).isLt
  have hi1 : (i 1).val < 40 := (i 1).isLt
  have ht : (i 0).val / 2000 < cfg3.N := by rw [show cfg3.N = 25 from N_3]; omega
  obtain ⟨-, -, -, -, e4, e5, -, -⟩ := r3_idx ⟨(i 0).val / 2000, ht⟩
  have e4' : win3_2.index ⟨(i 0).val / 2000, ht⟩ (0 : Fin 2) = (i 0).val / 2000 := e4
  refine ⟨⟨(i 0).val / 2000, ht⟩, flush3_2 _, ?_⟩
  rw [r3_mem_blk2]
  intro a
  match a with
  | ⟨0, _⟩ =>
    show win3_2.index ⟨(i 0).val / 2000, ht⟩ (0 : Fin 2) * 2000 ≤ (i 0).val ∧ (i 0).val < win3_2.index ⟨(i 0).val / 2000, ht⟩ (0 : Fin 2) * 2000 + 2000
    rw [e4']; omega
  | ⟨1, _⟩ =>
    show win3_2.index ⟨(i 0).val / 2000, ht⟩ (1 : Fin 2) * 40 ≤ (i 1).val ∧ (i 1).val < win3_2.index ⟨(i 0).val / 2000, ht⟩ (1 : Fin 2) * 40 + 40
    rw [e5]; omega

/-- THE LOGITS ARRAY after the region: the aggregated scores plus the bias row, at every index. -/
theorem region3_logits (c : Dev nD) :
    (dat3 (F := Ideal) V c).arrAt 2 cfg3.N = Cert.Spec.addBias (V c main_v61) (V c main_v62) :=
  (dat3 (F := Ideal) V c).arrAt_eq_of_cover 2 _ (fun t _ => r3_flushed2 V c t) r3_cover2

/-! ## The log-probabilities -/

/-- Row `p`'s maximum of the logits block of point `t` is the maximum of row `2000 t + p` of the logits array. -/
theorem r3_blk_rowmax (c : Dev nD) (t : Fin cfg3.N) (p : Fin 2000) :
    r3_bmax (k3_pay1 (iblk3 V c 0 t) (iblk3 V c 1 t)) p
      = Cert.Spec.rowMax (Cert.Spec.addBias (V c main_v61) (V c main_v62)) (r3_row t p) := by
  unfold r3_bmax Cert.Spec.rowMax
  refine congrArg (fun f => (Finset.univ : Finset (Fin 40)).fold max Cert.Spec.negInfE f) ?_
  funext k
  exact r3_blk_logits V c t p k

/-- Where the log-probability window's block index `(p, q)` at point `t` lies in the array. -/
theorem r3_emb3 (t : Fin cfg3.N) (p : Fin 2000) (q : Fin 40) :
    ((cfg3.win 3).blk t).view.emb (ix2 p q) = (ix2 (r3_row t p) q : S50000x40.Idx) := by
  obtain ⟨-, -, -, -, -, -, e6, e7⟩ := r3_idx t
  funext a; apply Fin.ext
  match a with
  | ⟨0, _⟩ => show win3_3.index t (0 : Fin 2) * 2000 + 1 * p.val = 2000 * t.val + p.val; rw [e6]; omega
  | ⟨1, _⟩ => show win3_3.index t (1 : Fin 2) * 40 + 1 * q.val = q.val; rw [e7]; omega

/-- What point `t` writes back through the log-probability window is block `t` of the log-softmax of the logits. -/
theorem r3_flushed3 (c : Dev nD) (t : Fin cfg3.N) :
    (dat3 (F := Ideal) V c).flushed 3 t
      = ((cfg3.win 3).blk t).view.read (Elt Ideal) (Cert.Spec.logSoftmax (Cert.Spec.addBias (V c main_v61) (V c main_v62))) := by
  show (cfg3.win 3).cut (grid3.coords t) ((dat3 V c).after 3 t) = _
  rw [after3_3]
  unfold out3_3
  rw [View.canon_unit_zero r3_hz]
  simp only [View.ld_unit_zero (S := S2000x40) r3_hz, View.ld_unit_zero (S := S1x40) r3_hz]
  refine funext fun (j : S2000x40.Idx) => ?_
  obtain ⟨p, q, rfl⟩ : ∃ p q, j = ix2 p q := ⟨j 0, j 1, eq_ix2 j⟩
  show k3_pay2 (iblk3 V c 0 t) (iblk3 V c 1 t) (ix2 p q)
    = Cert.Spec.logSoftmax (Cert.Spec.addBias (V c main_v61) (V c main_v62)) (((cfg3.win 3).blk t).view.emb (ix2 p q))
  rw [r3_emb3, r3_pay2_apply, r3_blk_rowmax]
  simp only [r3_blk_logits]
  rfl

/-- An index of the array is in point `t`'s block iff each coordinate is in the block's range on its axis. -/
theorem r3_mem_blk3 (t : Fin cfg3.N) (i : S50000x40.Idx) :
    i ∈ ((cfg3.win 3).blk t).view.set ↔ ∀ a : Fin 2, win3_3.index t a * S2000x40.size a ≤ (i a).val ∧ (i a).val < win3_3.index t a * S2000x40.size a + S2000x40.size a := by
  show i ∈ ((View.whole main_v63_1).slice (win3_3.rect t)).set ↔ _
  rw [View.set_slice_whole, Rect.mem_set_unit]
  exact Iff.rfl

/-- Every row lies in the block of the point `row / 2000`. -/
theorem r3_cover3 (i : S50000x40.Idx) :
    ∃ t : Fin cfg3.N, (cfg3.win 3).flush t = true ∧ i ∈ ((cfg3.win 3).blk t).view.set := by
  have hi0 : (i 0).val < 50000 := (i 0).isLt
  have hi1 : (i 1).val < 40 := (i 1).isLt
  have ht : (i 0).val / 2000 < cfg3.N := by rw [show cfg3.N = 25 from N_3]; omega
  obtain ⟨-, -, -, -, -, -, e6, e7⟩ := r3_idx ⟨(i 0).val / 2000, ht⟩
  have e6' : win3_3.index ⟨(i 0).val / 2000, ht⟩ (0 : Fin 2) = (i 0).val / 2000 := e6
  refine ⟨⟨(i 0).val / 2000, ht⟩, flush3_3 _, ?_⟩
  rw [r3_mem_blk3]
  intro a
  match a with
  | ⟨0, _⟩ =>
    show win3_3.index ⟨(i 0).val / 2000, ht⟩ (0 : Fin 2) * 2000 ≤ (i 0).val ∧ (i 0).val < win3_3.index ⟨(i 0).val / 2000, ht⟩ (0 : Fin 2) * 2000 + 2000
    rw [e6']; omega
  | ⟨1, _⟩ =>
    show win3_3.index ⟨(i 0).val / 2000, ht⟩ (1 : Fin 2) * 40 ≤ (i 1).val ∧ (i 1).val < win3_3.index ⟨(i 0).val / 2000, ht⟩ (1 : Fin 2) * 40 + 40
    rw [e7]; omega

/-- THE LOG-PROBABILITY ARRAY after the region: the row-wise log-softmax of the logits, at every index. -/
theorem region3_logp (c : Dev nD) :
    (dat3 (F := Ideal) V c).arrAt 3 cfg3.N
      = Cert.Spec.logSoftmax (Cert.Spec.addBias (V c main_v61) (V c main_v62)) :=
  (dat3 (F := Ideal) V c).arrAt_eq_of_cover 3 _ (fun t _ => r3_flushed3 V c t) r3_cover3

end Cert.Bridge

end
-- ==== Proof.RefSide.lean ====
/-
  The reference program's dense stages, read index by index over the extended reals: the two feature-by-weight
  products are the sums over the feature axis, the first layer's end is the biased features rectified at zero,
  the logits are the biased class scores, and the last stage is the row-wise log-softmax.  The gather / scale /
  scatter-add chain between them is never opened: it enters only as the array it produces.
-/
import proofs.«153919_j13262859010221_1_alg».proof.Proof.RefRead
import proofs.«153919_j13262859010221_1_alg».proof.Proof.Gen.KernelIdeal
import proofs.«153919_j13262859010221_1_alg».proof.Proof.Spec
import Idealize.ShloMosaic.Lib.ValueLayout
import Idealize.ShloMosaic.Lib.Pipeline.Value
import Idealize.ShloMosaic.Lib.ValueIdx
import Idealize.ShloMosaic.PureOps.Ideal.Laws
import Idealize.ShloMosaic.PureOps.Reduce

set_option maxRecDepth 16384

noncomputable section

namespace Cert.Bridge

open Cert.ReferenceIdeal Cert.ReferenceIdeal.Gen Cert.ReferenceIdeal.ReadP Idealize.ShloMosaic Idealize.ShloMosaic.ValueIdx
open scoped BigOperators

/-! ## The two products -/

/-- The first product: entry (r, c) is the sum over the 256 features of x(r, k) · w(k, c). -/
theorem ref_matmulA (x0 : (⟨S50000x256, .f32⟩ : BufTy).Contents (Elt Ideal)) (x2 : (⟨S256x128, .f32⟩ : BufTy).Contents (Elt Ideal)) :
    val_main_v32 (F := Ideal) x0 x2 = Cert.Spec.matmulA x0 x2 := by
  funext i
  rw [val_main_v32_apply]
  unfold Cert.Spec.matmulA
  refine Finset.sum_congr rfl fun k _ => ?_
  have el : lidx_main_v32 i k = ix2 (i 0) k :=
    funext fun a => Fin.ext (by match a with | ⟨0, _⟩ => rfl | ⟨1, _⟩ => rfl)
  have er : ridx_main_v32 i k = ix2 k (i 1) :=
    funext fun a => Fin.ext (by match a with | ⟨0, _⟩ => rfl | ⟨1, _⟩ => rfl)
  rw [el, er]
  rfl

/-- The second product: entry (r, c) is the sum over the 128 hidden features of h(r, k) · w(k, c). -/
theorem ref_matmulB (x0 : (⟨S50000x256, .f32⟩ : BufTy).Contents (Elt Ideal)) (x1 : (⟨S2x800000, .i32⟩ : BufTy).Contents (Elt Ideal)) (x2 : (⟨S256x128, .f32⟩ : BufTy).Contents (Elt Ideal)) (x3 : (⟨S128, .f32⟩ : BufTy).Contents (Elt Ideal)) (x4 : (⟨S128x40, .f32⟩ : BufTy).Contents (Elt Ideal)) :
    val_main_v50 (F := Ideal) x0 x1 x2 x3 x4 = Cert.Spec.matmulB (val_main_v49 (F := Ideal) x0 x1 x2 x3) x4 := by
  funext i
  rw [val_main_v50_apply]
  generalize val_main_v49 (F := Ideal) x0 x1 x2 x3 = hid
  unfold Cert.Spec.matmulB
  refine Finset.sum_congr rfl fun k _ => ?_
  have el : lidx_main_v50 i k = ix2 (i 0) k :=
    funext fun a => Fin.ext (by match a with | ⟨0, _⟩ => rfl | ⟨1, _⟩ => rfl)
  have er : ridx_main_v50 i k = ix2 k (i 1) :=
    funext fun a => Fin.ext (by match a with | ⟨0, _⟩ => rfl | ⟨1, _⟩ => rfl)
  rw [el, er]
  rfl

/-! ## The bias stages -/

/-- The first layer's end: the aggregated features plus the bias of the column, rectified at zero.  The bias
    vector broadcast to one row and then down the rows reads, at (r, q), entry q: the same entry the vector
    cast to one row holds at (0, q). -/
theorem ref_biasRelu (x0 : (⟨S50000x256, .f32⟩ : BufTy).Contents (Elt Ideal)) (x1 : (⟨S2x800000, .i32⟩ : BufTy).Contents (Elt Ideal)) (x2 : (⟨S256x128, .f32⟩ : BufTy).Contents (Elt Ideal)) (x3 : (⟨S128, .f32⟩ : BufTy).Contents (Elt Ideal)) :
    val_main_v49 (F := Ideal) x0 x1 x2 x3
      = Cert.Spec.biasRelu (val_main_v45 (F := Ideal) x0 x1 x2)
          (shapeCast Cert.KernelIdeal.S1x128 x3 Cert.KernelIdeal.Facts₀.shapeCasts_S128_S1x128) := by
  funext i
  obtain ⟨r, q, rfl⟩ : ∃ (r : Fin 50000) (q : Fin 128), i = ix2 r q := ⟨i 0, i 1, eq_ix2 i⟩
  rw [val_main_v49_apply, val_main_v48_apply, val_main_v47_apply, val_main_v46_apply, val_main_call1_v0_apply,
    val_main_call1_cst_apply]
  generalize val_main_v45 (F := Ideal) x0 x1 x2 = agg
  have e : idx_main_v46 (idx_main_v47 (ix2 r q)) = ix1 q :=
    funext fun a => Fin.ext (by match a with | ⟨0, _⟩ => rfl)
  rw [e]
  exact congrArg (fun b => max (agg (ix2 r q) + b) Cert.Spec.zeroE)
    (shapeCast_a_1a_apply x3 Cert.KernelIdeal.Facts₀.shapeCasts_S128_S1x128 (0 : Fin 1) q).symm

/-- The logits: the aggregated class scores plus the bias of the class. -/
theorem ref_addBias (x0 : (⟨S50000x256, .f32⟩ : BufTy).Contents (Elt Ideal)) (x1 : (⟨S2x800000, .i32⟩ : BufTy).Contents (Elt Ideal)) (x2 : (⟨S256x128, .f32⟩ : BufTy).Contents (Elt Ideal)) (x3 : (⟨S128, .f32⟩ : BufTy).Contents (Elt Ideal)) (x4 : (⟨S128x40, .f32⟩ : BufTy).Contents (Elt Ideal)) (x5 : (⟨S40, .f32⟩ : BufTy).Contents (Elt Ideal)) :
    val_main_v66 (F := Ideal) x0 x1 x2 x3 x4 x5
      = Cert.Spec.addBias (val_main_v63 (F := Ideal) x0 x1 x2 x3 x4)
          (shapeCast Cert.KernelIdeal.S1x40 x5 Cert.KernelIdeal.Facts₀.shapeCasts_S40_S1x40) := by
  funext i
  obtain ⟨r, q, rfl⟩ : ∃ (r : Fin 50000) (q : Fin 40), i = ix2 r q := ⟨i 0, i 1, eq_ix2 i⟩
  rw [val_main_v66_apply, val_main_v65_apply, val_main_v64_apply]
  generalize val_main_v63 (F := Ideal) x0 x1 x2 x3 x4 = agg
  have e : idx_main_v64 (idx_main_v65 (ix2 r q)) = ix1 q :=
    funext fun a => Fin.ext (by match a with | ⟨0, _⟩ => rfl)
  rw [e]
  exact congrArg (fun b => agg (ix2 r q) + b)
    (shapeCast_a_1a_apply x5 Cert.KernelIdeal.Facts₀.shapeCasts_S40_S1x40 (0 : Fin 1) q).symm

/-! ## The row-wise log-softmax -/

/-- Row r with class k put back on the class axis is the index (r, k). -/
theorem ref_lift_row (h : S50000x40.Reduces [1] S50000) (r : Fin 50000) (k : Fin (S50000x40.size 1)) :
    h.lift (ix1 r) k = ix2 r (⟨k.val, k.isLt⟩ : Fin 40) := by
  funext c; apply Fin.ext
  fin_cases c <;> rfl

/-- The host's row maximum from minus infinity, capped below once more by minus infinity, is the fold of max over
    the 40 classes from minus infinity: the second cap changes nothing, the fold being above its starting value. -/
theorem ref_rowMax_core (l : (⟨S50000x40, .f32⟩ : BufTy).Contents (Elt Ideal)) (r : Fin 50000) :
    FloatOps.maximumf (F := Ideal) (FloatOps.ofBits .f32 0xFF800000#32)
      (Host.reduce FloatOps.maximumf l (constant (F := Ideal) S_ .f32 0xFF800000#32) reducesTo_S50000x40_S50000_d1 h_S_ (ix1 r))
    = Cert.Spec.rowMax l r := by
  have hR : S50000x40.Reduces [1] S50000 := by decide
  have hfold := Host.reduce_eq_fold_single (FloatOps.maximumf (F := Ideal) (φ := .f32)) (l : S50000x40.Idx → Ideal .f32)
    (constant (F := Ideal) S_ .f32 0xFF800000#32) reducesTo_S50000x40_S50000_d1 hR h_S_ (ix1 r)
  refine (congrArg (FloatOps.maximumf (F := Ideal) (FloatOps.ofBits .f32 0xFF800000#32)) hfold).trans ?_
  have hf : (l ∘ hR.lift (ix1 r)) = fun k : Fin 40 => l (ix2 r k) := funext fun k => congrArg l (ref_lift_row hR r k)
  rw [hf]
  show max Cert.Spec.negInfE (Finset.fold max Cert.Spec.negInfE (fun k : Fin 40 => l (ix2 r k)) Finset.univ) = Cert.Spec.rowMax l r
  exact max_eq_right ((Finset.le_fold_max Cert.Spec.negInfE).mpr (Or.inl le_rfl))

/-- The reference's row maximum of the logits is the row maximum of the specification. -/
theorem ref_rowMax (x0 : (⟨S50000x256, .f32⟩ : BufTy).Contents (Elt Ideal)) (x1 : (⟨S2x800000, .i32⟩ : BufTy).Contents (Elt Ideal)) (x2 : (⟨S256x128, .f32⟩ : BufTy).Contents (Elt Ideal)) (x3 : (⟨S128, .f32⟩ : BufTy).Contents (Elt Ideal)) (x4 : (⟨S128x40, .f32⟩ : BufTy).Contents (Elt Ideal)) (x5 : (⟨S40, .f32⟩ : BufTy).Contents (Elt Ideal)) (r : Fin 50000) :
    val_main_call2_v2 (F := Ideal) x0 x1 x2 x3 x4 x5 (ix1 r)
      = Cert.Spec.rowMax (val_main_v66 (F := Ideal) x0 x1 x2 x3 x4 x5) r := by
  rw [val_main_call2_v2_apply, val_main_call2_v1_apply, val_main_call2_cst_0_apply]
  unfold val_main_call2_v0 val_main_call2_cst
  generalize val_main_v66 (F := Ideal) x0 x1 x2 x3 x4 x5 = l
  exact ref_rowMax_core l r

/-- The shifted logit at (r, k): the logit minus its row's maximum. -/
theorem ref_shifted (x0 : (⟨S50000x256, .f32⟩ : BufTy).Contents (Elt Ideal)) (x1 : (⟨S2x800000, .i32⟩ : BufTy).Contents (Elt Ideal)) (x2 : (⟨S256x128, .f32⟩ : BufTy).Contents (Elt Ideal)) (x3 : (⟨S128, .f32⟩ : BufTy).Contents (Elt Ideal)) (x4 : (⟨S128x40, .f32⟩ : BufTy).Contents (Elt Ideal)) (x5 : (⟨S40, .f32⟩ : BufTy).Contents (Elt Ideal)) (r : Fin 50000) (k : Fin 40) :
    val_main_call2_v5 (F := Ideal) x0 x1 x2 x3 x4 x5 (ix2 r k)
      = val_main_v66 (F := Ideal) x0 x1 x2 x3 x4 x5 (ix2 r k)
        - Cert.Spec.rowMax (val_main_v66 (F := Ideal) x0 x1 x2 x3 x4 x5) r := by
  rw [val_main_call2_v5_apply, val_main_call2_v4_apply, val_main_call2_v3_apply]
  have e : idx_main_call2_v3 (idx_main_call2_v4 (ix2 r k)) = ix1 r :=
    funext fun a => Fin.ext (by match a with | ⟨0, _⟩ => rfl)
  rw [e, ref_rowMax]
  rfl

/-- The row's sum of exponentials of the shifted logits; the sum starts from the zero word, which is 0. -/
theorem ref_rowSum (x0 : (⟨S50000x256, .f32⟩ : BufTy).Contents (Elt Ideal)) (x1 : (⟨S2x800000, .i32⟩ : BufTy).Contents (Elt Ideal)) (x2 : (⟨S256x128, .f32⟩ : BufTy).Contents (Elt Ideal)) (x3 : (⟨S128, .f32⟩ : BufTy).Contents (Elt Ideal)) (x4 : (⟨S128x40, .f32⟩ : BufTy).Contents (Elt Ideal)) (x5 : (⟨S40, .f32⟩ : BufTy).Contents (Elt Ideal)) (r : Fin 50000) :
    val_main_call2_v7 (F := Ideal) x0 x1 x2 x3 x4 x5 (ix1 r)
      = ∑ k : Fin 40, Ideal.exp (val_main_v66 (F := Ideal) x0 x1 x2 x3 x4 x5 (ix2 r k)
          - Cert.Spec.rowMax (val_main_v66 (F := Ideal) x0 x1 x2 x3 x4 x5) r) := by
  rw [val_main_call2_v7_apply, val_main_call2_cst_1_apply, Ideal.ofBits_def, Ideal.ofBits_zero_f32, zero_add]
  refine Finset.sum_congr rfl fun k _ => ?_
  have e : idx_main_call2_v7 (ix1 r) k = ix2 r k :=
    funext fun a => Fin.ext (by match a with | ⟨0, _⟩ => rfl | ⟨1, _⟩ => rfl)
  rw [e, val_main_call2_v6_apply, ref_shifted, Ideal.hostUnary_exp_def]

/-- The last stage is the row-wise log-softmax of the logits. -/
theorem ref_logSoftmax (x0 : (⟨S50000x256, .f32⟩ : BufTy).Contents (Elt Ideal)) (x1 : (⟨S2x800000, .i32⟩ : BufTy).Contents (Elt Ideal)) (x2 : (⟨S256x128, .f32⟩ : BufTy).Contents (Elt Ideal)) (x3 : (⟨S128, .f32⟩ : BufTy).Contents (Elt Ideal)) (x4 : (⟨S128x40, .f32⟩ : BufTy).Contents (Elt Ideal)) (x5 : (⟨S40, .f32⟩ : BufTy).Contents (Elt Ideal)) :
    val_main_v67 (F := Ideal) x0 x1 x2 x3 x4 x5
      = Cert.Spec.logSoftmax (val_main_v66 (F := Ideal) x0 x1 x2 x3 x4 x5) := by
  funext i
  obtain ⟨r, q, rfl⟩ : ∃ (r : Fin 50000) (q : Fin 40), i = ix2 r q := ⟨i 0, i 1, eq_ix2 i⟩
  rw [val_main_v67_apply, val_main_call2_v10_apply, val_main_call2_v9_apply, val_main_call2_v8_apply]
  have e : idx_main_call2_v8 (idx_main_call2_v10 (ix2 r q)) = ix1 r :=
    funext fun a => Fin.ext (by match a with | ⟨0, _⟩ => rfl)
  rw [e, ref_rowSum, ref_shifted, Ideal.subf_def, Ideal.hostUnary_log_def]
  generalize val_main_v66 (F := Ideal) x0 x1 x2 x3 x4 x5 = l
  rfl

end Cert.Bridge

end
-- ==== Proof.Chain.lean ====
/-
  The kernel program's two results are the reference's two results.

  Walking the kernel program from its launch: before the first kernel region the host operations compute the edge
  lists and the edges' normalisation, exactly the reference's; the first region's array is the node features
  times the first weight matrix (25 row blocks of one whole-array product); the next stretch aggregates it along
  the edges, as the reference does; the second region adds the bias and rectifies; the third multiplies by the
  second weight matrix; the last stretch aggregates again; the fourth region adds the second bias (the logits) and
  takes the row-wise log-softmax. At every boundary the buffer a later step reads holds the reference's stage of the
  same arguments, so the two results are the reference's logits and log-probabilities.
-/
import proofs.«153919_j13262859010221_1_alg».proof.Proof.Boundary
import proofs.«153919_j13262859010221_1_alg».proof.Proof.Region0
import proofs.«153919_j13262859010221_1_alg».proof.Proof.Region1
import proofs.«153919_j13262859010221_1_alg».proof.Proof.Region2
import proofs.«153919_j13262859010221_1_alg».proof.Proof.Region3
import proofs.«153919_j13262859010221_1_alg».proof.Proof.RefSide

set_option maxRecDepth 16384

noncomputable section

namespace Cert.Bridge

open Idealize.ShloMosaic Idealize.ShloMosaic.TcCoe Idealize.SL.Sem Idealize.ShloMosaic.StableHlo Cert.KernelIdeal Cert.KernelIdeal.Gen
open Cert.ReferenceIdeal.ReadP (val_main_v3 val_main_v6 val_main_v12 val_main_v15 val_main_cst_3 val_main_v16 val_main_v31 val_main_v32 val_main_v45 val_main_v49 val_main_v50 val_main_v63 val_main_v66 val_main_v67)

variable (m : (ℓ : Loc nD τ sig) → Buf (Elt Ideal) ℓ) (ρ : Dev nD → PrngReg) (c : Dev nD)

/-- The node features. -/
abbrev aX : Buf (Elt Ideal) ((c : Thread nD τ).loc main_arg0) := m ((c : Thread nD τ).loc main_arg0)
/-- The edge list. -/
abbrev aE : Buf (Elt Ideal) ((c : Thread nD τ).loc main_arg1) := m ((c : Thread nD τ).loc main_arg1)
/-- The first weight matrix. -/
abbrev aW1 : Buf (Elt Ideal) ((c : Thread nD τ).loc main_arg2) := m ((c : Thread nD τ).loc main_arg2)
/-- The first bias. -/
abbrev aB1 : Buf (Elt Ideal) ((c : Thread nD τ).loc main_arg3) := m ((c : Thread nD τ).loc main_arg3)
/-- The second weight matrix. -/
abbrev aW2 : Buf (Elt Ideal) ((c : Thread nD τ).loc main_arg4) := m ((c : Thread nD τ).loc main_arg4)
/-- The second bias. -/
abbrev aB2 : Buf (Elt Ideal) ((c : Thread nD τ).loc main_arg5) := m ((c : Thread nD τ).loc main_arg5)

/-! ## At the first kernel region's entry -/

theorem at3_rows : W3 m ρ c (Proc.devRef .tc main_v3) = val_main_v3 (F := Ideal) (aE m c) :=
  (pre3_keep_v3 (W2 m ρ c)).trans ((pre2_keep_v3 (W1 m ρ c)).trans (pre1_rows (W0 m ρ c)))

theorem at3_cols : W3 m ρ c (Proc.devRef .tc main_v6) = val_main_v6 (F := Ideal) (aE m c) :=
  (pre3_keep_v6 (W2 m ρ c)).trans ((pre2_keep_v6 (W1 m ρ c)).trans (pre1_cols (W0 m ρ c)))

theorem at3_norm : W3 m ρ c (Proc.devRef .tc main_v31) = val_main_v31 (F := Ideal) (aE m c) :=
  pre3_norm (W2 m ρ c) (aE m c)
    ((pre2_keep_v3 (W1 m ρ c)).trans (pre1_rows (W0 m ρ c)))
    ((pre2_keep_v6 (W1 m ρ c)).trans (pre1_cols (W0 m ρ c)))
    (pre2_dinv (W1 m ρ c) (aE m c) (pre1_pos (W0 m ρ c)) (pre1_rsqrt (W0 m ρ c)) (pre1_zero (W0 m ρ c)))

theorem at3_arg0 : W3 m ρ c (Proc.devRef .tc main_arg0) = aX m c :=
  (pre3_keep_arg0 (W2 m ρ c)).trans ((pre2_keep_arg0 (W1 m ρ c)).trans (pre1_keep_arg0 (W0 m ρ c)))
theorem at3_arg2 : W3 m ρ c (Proc.devRef .tc main_arg2) = aW1 m c :=
  (pre3_keep_arg2 (W2 m ρ c)).trans ((pre2_keep_arg2 (W1 m ρ c)).trans (pre1_keep_arg2 (W0 m ρ c)))
theorem at3_arg3 : W3 m ρ c (Proc.devRef .tc main_arg3) = aB1 m c :=
  (pre3_keep_arg3 (W2 m ρ c)).trans ((pre2_keep_arg3 (W1 m ρ c)).trans (pre1_keep_arg3 (W0 m ρ c)))
theorem at3_arg4 : W3 m ρ c (Proc.devRef .tc main_arg4) = aW2 m c :=
  (pre3_keep_arg4 (W2 m ρ c)).trans ((pre2_keep_arg4 (W1 m ρ c)).trans (pre1_keep_arg4 (W0 m ρ c)))
theorem at3_arg5 : W3 m ρ c (Proc.devRef .tc main_arg5) = aB2 m c :=
  (pre3_keep_arg5 (W2 m ρ c)).trans ((pre2_keep_arg5 (W1 m ρ c)).trans (pre1_keep_arg5 (W0 m ρ c)))

/-! ## After the first kernel region: the features times the first weight matrix -/

theorem at4_product : W4 m ρ c (Proc.devRef .tc main_v32) = val_main_v32 (F := Ideal) (aX m c) (aW1 m c) := by
  refine (W4_arr m ρ c 2).trans ((region0_array (V3 m ρ) c).trans ?_)
  rw [show V3 m ρ c main_arg0 = aX m c from at3_arg0 m ρ c, show V3 m ρ c main_arg2 = aW1 m c from at3_arg2 m ρ c]
  exact (ref_matmulA _ _).symm

theorem at4_rows : W4 m ρ c (Proc.devRef .tc main_v3) = val_main_v3 (F := Ideal) (aE m c) :=
  (W4_of_ne m ρ c main_v3 (by decide)).trans (at3_rows m ρ c)
theorem at4_cols : W4 m ρ c (Proc.devRef .tc main_v6) = val_main_v6 (F := Ideal) (aE m c) :=
  (W4_of_ne m ρ c main_v6 (by decide)).trans (at3_cols m ρ c)
theorem at4_norm : W4 m ρ c (Proc.devRef .tc main_v31) = val_main_v31 (F := Ideal) (aE m c) :=
  (W4_of_ne m ρ c main_v31 (by decide)).trans (at3_norm m ρ c)
theorem at4_arg3 : W4 m ρ c (Proc.devRef .tc main_arg3) = aB1 m c :=
  (W4_of_ne m ρ c main_arg3 (by decide)).trans (at3_arg3 m ρ c)
theorem at4_arg4 : W4 m ρ c (Proc.devRef .tc main_arg4) = aW2 m c :=
  (W4_of_ne m ρ c main_arg4 (by decide)).trans (at3_arg4 m ρ c)
theorem at4_arg5 : W4 m ρ c (Proc.devRef .tc main_arg5) = aB2 m c :=
  (W4_of_ne m ρ c main_arg5 (by decide)).trans (at3_arg5 m ρ c)

/-! ## At the second kernel region's entry: the first layer aggregated -/

theorem at5_agg : W5 m ρ c (Proc.devRef .tc main_v45) = val_main_v45 (F := Ideal) (aX m c) (aE m c) (aW1 m c) :=
  mid1_agg (W4 m ρ c) (aX m c) (aE m c) (aW1 m c) (at4_product m ρ c) (at4_rows m ρ c) (at4_cols m ρ c) (at4_norm m ρ c)

theorem at5_bias : W5 m ρ c (Proc.devRef .tc main_v46) = shapeCast S1x128 (aB1 m c) shapeCasts_S128_S1x128 :=
  (mid1_bias (W4 m ρ c)).trans (congrArg (fun b => shapeCast S1x128 b shapeCasts_S128_S1x128) (at4_arg3 m ρ c))

theorem at5_rows : W5 m ρ c (Proc.devRef .tc main_v3) = val_main_v3 (F := Ideal) (aE m c) :=
  (mid1_keep_v3 (W4 m ρ c)).trans (at4_rows m ρ c)
theorem at5_cols : W5 m ρ c (Proc.devRef .tc main_v6) = val_main_v6 (F := Ideal) (aE m c) :=
  (mid1_keep_v6 (W4 m ρ c)).trans (at4_cols m ρ c)
theorem at5_norm : W5 m ρ c (Proc.devRef .tc main_v31) = val_main_v31 (F := Ideal) (aE m c) :=
  (mid1_keep_v31 (W4 m ρ c)).trans (at4_norm m ρ c)
theorem at5_arg4 : W5 m ρ c (Proc.devRef .tc main_arg4) = aW2 m c :=
  (mid1_keep_arg4 (W4 m ρ c)).trans (at4_arg4 m ρ c)
theorem at5_arg5 : W5 m ρ c (Proc.devRef .tc main_arg5) = aB2 m c :=
  (mid1_keep_arg5 (W4 m ρ c)).trans (at4_arg5 m ρ c)

/-! ## After the second kernel region: bias and rectifier -/

theorem at6_hidden : W6 m ρ c (Proc.devRef .tc main_v47) = val_main_v49 (F := Ideal) (aX m c) (aE m c) (aW1 m c) (aB1 m c) := by
  refine (W6_arr m ρ c 2).trans ((region1_array (V5 m ρ) c).trans ?_)
  rw [show V5 m ρ c main_v45 = val_main_v45 (F := Ideal) (aX m c) (aE m c) (aW1 m c) from at5_agg m ρ c,
    show V5 m ρ c main_v46 = shapeCast S1x128 (aB1 m c) shapeCasts_S128_S1x128 from at5_bias m ρ c]
  exact (ref_biasRelu _ _ _ _).symm

theorem at6_rows : W6 m ρ c (Proc.devRef .tc main_v3) = val_main_v3 (F := Ideal) (aE m c) :=
  (W6_of_ne m ρ c main_v3 (by decide)).trans (at5_rows m ρ c)
theorem at6_cols : W6 m ρ c (Proc.devRef .tc main_v6) = val_main_v6 (F := Ideal) (aE m c) :=
  (W6_of_ne m ρ c main_v6 (by decide)).trans (at5_cols m ρ c)
theorem at6_norm : W6 m ρ c (Proc.devRef .tc main_v31) = val_main_v31 (F := Ideal) (aE m c) :=
  (W6_of_ne m ρ c main_v31 (by decide)).trans (at5_norm m ρ c)
theorem at6_arg4 : W6 m ρ c (Proc.devRef .tc main_arg4) = aW2 m c :=
  (W6_of_ne m ρ c main_arg4 (by decide)).trans (at5_arg4 m ρ c)
theorem at6_arg5 : W6 m ρ c (Proc.devRef .tc main_arg5) = aB2 m c :=
  (W6_of_ne m ρ c main_arg5 (by decide)).trans (at5_arg5 m ρ c)

/-! ## After the third kernel region: the hidden features times the second weight matrix -/

theorem at7_scores : W7 m ρ c (Proc.devRef .tc main_v48) = val_main_v50 (F := Ideal) (aX m c) (aE m c) (aW1 m c) (aB1 m c) (aW2 m c) := by
  refine (W7_arr m ρ c 2).trans ((region2_array (V6 m ρ) c).trans ?_)
  rw [show V6 m ρ c main_v47 = val_main_v49 (F := Ideal) (aX m c) (aE m c) (aW1 m c) (aB1 m c) from at6_hidden m ρ c,
    show V6 m ρ c main_arg4 = aW2 m c from at6_arg4 m ρ c]
  exact (ref_matmulB _ _ _ _ _).symm

theorem at7_rows : W7 m ρ c (Proc.devRef .tc main_v3) = val_main_v3 (F := Ideal) (aE m c) :=
  (W7_of_ne m ρ c main_v3 (by decide)).trans (at6_rows m ρ c)
theorem at7_cols : W7 m ρ c (Proc.devRef .tc main_v6) = val_main_v6 (F := Ideal) (aE m c) :=
  (W7_of_ne m ρ c main_v6 (by decide)).trans (at6_cols m ρ c)
theorem at7_norm : W7 m ρ c (Proc.devRef .tc main_v31) = val_main_v31 (F := Ideal) (aE m c) :=
  (W7_of_ne m ρ c main_v31 (by decide)).trans (at6_norm m ρ c)
theorem at7_arg5 : W7 m ρ c (Proc.devRef .tc main_arg5) = aB2 m c :=
  (W7_of_ne m ρ c main_arg5 (by decide)).trans (at6_arg5 m ρ c)

/-! ## At the fourth kernel region's entry: the second layer aggregated -/

theorem at8_agg : W8 m ρ c (Proc.devRef .tc main_v61) = val_main_v63 (F := Ideal) (aX m c) (aE m c) (aW1 m c) (aB1 m c) (aW2 m c) :=
  mid3_agg (W7 m ρ c) (aX m c) (aE m c) (aW1 m c) (aB1 m c) (aW2 m c) (at7_scores m ρ c) (at7_rows m ρ c) (at7_cols m ρ c) (at7_norm m ρ c)

theorem at8_bias : W8 m ρ c (Proc.devRef .tc main_v62) = shapeCast S1x40 (aB2 m c) shapeCasts_S40_S1x40 :=
  (mid3_bias (W7 m ρ c)).trans (congrArg (fun b => shapeCast S1x40 b shapeCasts_S40_S1x40) (at7_arg5 m ρ c))

/-! ## The two results -/

/-- The kernel program's logits are the reference's. -/
theorem kernel_logits : W9 m ρ c (Proc.devRef .tc main_v63_0)
    = val_main_v66 (F := Ideal) (aX m c) (aE m c) (aW1 m c) (aB1 m c) (aW2 m c) (aB2 m c) := by
  refine (W9_arr m ρ c 2).trans ((region3_logits (V8 m ρ) c).trans ?_)
  rw [show V8 m ρ c main_v61 = val_main_v63 (F := Ideal) (aX m c) (aE m c) (aW1 m c) (aB1 m c) (aW2 m c) from at8_agg m ρ c,
    show V8 m ρ c main_v62 = shapeCast S1x40 (aB2 m c) shapeCasts_S40_S1x40 from at8_bias m ρ c]
  exact (ref_addBias _ _ _ _ _ _).symm

/-- The kernel program's log-probabilities are the reference's. -/
theorem kernel_logp : W9 m ρ c (Proc.devRef .tc main_v63_1)
    = val_main_v67 (F := Ideal) (aX m c) (aE m c) (aW1 m c) (aB1 m c) (aW2 m c) (aB2 m c) := by
  refine (W9_arr m ρ c 3).trans ((region3_logp (V8 m ρ) c).trans ?_)
  rw [show V8 m ρ c main_v61 = val_main_v63 (F := Ideal) (aX m c) (aE m c) (aW1 m c) (aB1 m c) (aW2 m c) from at8_agg m ρ c,
    show V8 m ρ c main_v62 = shapeCast S1x40 (aB2 m c) shapeCasts_S40_S1x40 from at8_bias m ρ c]
  exact ((ref_logSoftmax _ _ _ _ _ _).trans (congrArg Cert.Spec.logSoftmax (ref_addBias _ _ _ _ _ _))).symm

end Cert.Bridge

end
-- ==== Proof.lean ====
/-
  The certificate of a two-layer graph-convolution network: four tiled kernels (two matrix products, a bias with
  rectifier, a bias with row-wise log-softmax) among the host operations that gather, scale and scatter-add along
  the edges, against the plain reference that does every step on the host.

  Over the extended reals both programs compute, from the same arguments, the same two arrays: the host chains are
  the same operations on both sides and are never opened; each kernel region's array is one whole-array function
  (a sum of products over the feature axis; a bias and a maximum with zero; a bias; a log-softmax along the rows),
  which is also what the reference's stage computes. The three frames are the programs' runs with the results
  forgotten; the idealisation rewrote nothing.
-/
import proofs.«153919_j13262859010221_1_alg».proof.Defs
import proofs.«153919_j13262859010221_1_alg».proof.Proof.Gen.Kernel
import proofs.«153919_j13262859010221_1_alg».proof.Proof.Gen.Kernel.Frame
import proofs.«153919_j13262859010221_1_alg».proof.Proof.Gen.KernelIdeal
import proofs.«153919_j13262859010221_1_alg».proof.Proof.Gen.KernelIdeal.Frame
import proofs.«153919_j13262859010221_1_alg».proof.Proof.Gen.ReferenceIdeal
import proofs.«153919_j13262859010221_1_alg».proof.Proof.Gen.Pre_finite_inputs
import proofs.«153919_j13262859010221_1_alg».proof.Proof.KRun
import proofs.«153919_j13262859010221_1_alg».proof.Proof.RefRun
import proofs.«153919_j13262859010221_1_alg».proof.Proof.Chain
import Idealize.ShloMosaic.Adequacy
import Idealize.ShloMosaic.Init

noncomputable section

namespace Cert.Proof

open Idealize.ShloMosaic Idealize.SL.Sem

/-- The word-level kernel program runs and leaves its arguments alone. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference's frame is its run with the two results forgotten. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- From memories that agree on the six arguments both programs end with the same log-probabilities and the same
    logits: the kernel program's two result buffers hold the reference's two stages of its own arguments, which
    are the reference's arguments. -/
theorem algebraic : Cert.algebraic_KernelIdeal_ReferenceIdeal := by
  intro m ρ m' ρ' _ hagree
  refine ⟨fun c => Cert.KernelIdeal.Gen.W9 m ρ c (Proc.devRef .tc Cert.KernelIdeal.main_v63_1),
    fun c => Cert.KernelIdeal.Gen.W9 m ρ c (Proc.devRef .tc Cert.KernelIdeal.main_v63_0),
    Cert.KernelIdeal.GenRun.run_results (F := Ideal) m ρ, ?_⟩
  refine (θ_run Cert.ReferenceIdeal.defs _ _).mono (fun _ h c => ?_) (Cert.ReferenceIdeal.ValueP.run (F := Ideal) m' ρ')
  obtain ⟨h67, h66, hargs⟩ := h c
  obtain ⟨e0, e1, e2, e3, e4, e5⟩ := hagree c
  refine ⟨h67.trans ?_, h66.trans ?_, hargs⟩
  · rw [e0, e1, e2, e3, e4, e5]
    exact (Cert.Bridge.kernel_logp m ρ c).symm
  · rw [e0, e1, e2, e3, e4, e5]
    exact (Cert.Bridge.kernel_logits m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
